-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S500x3 : Shape := ⟨2, ![500, 3]⟩
abbrev S500x3072 : Shape := ⟨2, ![500, 3072]⟩
abbrev S500x64 : Shape := ⟨2, ![500, 64]⟩
abbrev S500x10 : Shape := ⟨2, ![500, 10]⟩
abbrev S500 : Shape := ⟨1, ![500]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S500x3 : S_.BroadcastsInDim S500x3 (![] : Fin 0 → Fin S500x3.rank)
  reducesTo_S500x3_S_d0_1 : S500x3.ReducesTo [0, 1] S_
  bcast_S_S500x3072 : S_.BroadcastsInDim S500x3072 (![] : Fin 0 → Fin S500x3072.rank)
  reducesTo_S500x3072_S_d0_1 : S500x3072.ReducesTo [0, 1] S_
  bcast_S_S500x64 : S_.BroadcastsInDim S500x64 (![] : Fin 0 → Fin S500x64.rank)
  reducesTo_S500x64_S_d0_1 : S500x64.ReducesTo [0, 1] S_
  bcast_S_S500x10 : S_.BroadcastsInDim S500x10 (![] : Fin 0 → Fin S500x10.rank)
  reducesTo_S500x10_S_d0_1 : S500x10.ReducesTo [0, 1] S_
  bcast_S_S500 : S_.BroadcastsInDim S500 (![] : Fin 0 → Fin S500.rank)
  reducesTo_S500_S_d0 : S500.ReducesTo [0] S_

variable [Facts]

def fn_part1 {F : FTy → Type} [FloatOps F] (main_arg4 : FVec F S500x10 .f32) (main_arg5 : FVec F S500 .f32) (main_v13 : IVec S_ 1) (main_v16 : IVec S500x64 1) : IVec S_ 1 :=
  let main_c_5 : IVec S_ 1 := constantI S_ 1 1#1
  let main_v17 : IVec S_ 1 := (fun x v => Host.reduce IntOp.andi x v reducesTo_S500x64_S_d0_1 h_S_) main_v16 main_c_5
  let main_v18 : IVec S_ 1 := andi main_v13 main_v17
  let main_v19 : FVec F S500x10 .f32 := Host.absf main_arg4
  let main_cst_6 : FVec F S_ .f32 := constant S_ .f32 0x7F800000#32
  let main_v20 : FVec F S500x10 .f32 := broadcastInDim S500x10 ![] bcast_S_S500x10 main_cst_6
  let main_v21 : IVec S500x10 1 := cmpf .olt main_v19 main_v20
  let main_c_7 : IVec S_ 1 := constantI S_ 1 1#1
  let main_v22 : IVec S_ 1 := (fun x v => Host.reduce IntOp.andi x v reducesTo_S500x10_S_d0_1 h_S_) main_v21 main_c_7
  let main_v23 : IVec S_ 1 := andi main_v18 main_v22
  let main_v24 : FVec F S500 .f32 := Host.absf main_arg5
  let main_cst_8 : FVec F S_ .f32 := constant S_ .f32 0x7F800000#32
  let main_v25 : FVec F S500 .f32 := broadcastInDim S500 ![] bcast_S_S500 main_cst_8
  let main_v26 : IVec S500 1 := cmpf .olt main_v24 main_v25
  let main_c_9 : IVec S_ 1 := constantI S_ 1 1#1
  let main_v27 : IVec S_ 1 := (fun x v => Host.reduce IntOp.andi x v reducesTo_S500_S_d0 h_S_) main_v26 main_c_9
  let main_v28 : IVec S_ 1 := andi main_v23 main_v27
  main_v28

def fn {F : FTy → Type} [FloatOps F] (main_arg0 : FVec F S8192x3072 .f32) (main_arg1 : FVec F S500x3 .f32) (main_arg2 : FVec F S500x3072 .f32) (main_arg3 : FVec F S500x64 .f32) (main_arg4 : FVec F S500x10 .f32) (main_arg5 : FVec F S500 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S500x3 .f32 := Host.absf main_arg1
  let main_cst_0 : FVec F S_ .f32 := constant S_ .f32 0x7F800000#32
  let main_v5 : FVec F S500x3 .f32 := broadcastInDim S500x3 ![] bcast_S_S500x3 main_cst_0
  let main_v6 : IVec S500x3 1 := cmpf .olt main_v4 main_v5
  let main_c_1 : IVec S_ 1 := constantI S_ 1 1#1
  let main_v7 : IVec S_ 1 := (fun x v => Host.reduce IntOp.andi x v reducesTo_S500x3_S_d0_1 h_S_) main_v6 main_c_1
  let main_v8 : IVec S_ 1 := andi main_v3 main_v7
  let main_v9 : FVec F S500x3072 .f32 := Host.absf main_arg2
  let main_cst_2 : FVec F S_ .f32 := constant S_ .f32 0x7F800000#32
  let main_v10 : FVec F S500x3072 .f32 := broadcastInDim S500x3072 ![] bcast_S_S500x3072 main_cst_2
  let main_v11 : IVec S500x3072 1 := cmpf .olt main_v9 main_v10
  let main_c_3 : IVec S_ 1 := constantI S_ 1 1#1
  let main_v12 : IVec S_ 1 := (fun x v => Host.reduce IntOp.andi x v reducesTo_S500x3072_S_d0_1 h_S_) main_v11 main_c_3
  let main_v13 : IVec S_ 1 := andi main_v8 main_v12
  let main_v14 : FVec F S500x64 .f32 := Host.absf main_arg3
  let main_cst_4 : FVec F S_ .f32 := constant S_ .f32 0x7F800000#32
  let main_v15 : FVec F S500x64 .f32 := broadcastInDim S500x64 ![] bcast_S_S500x64 main_cst_4
  let main_v16 : IVec S500x64 1 := cmpf .olt main_v14 main_v15
  fn_part1 (F := F) main_arg4 main_arg5 main_v13 main_v16
-- ==== Kernel.lean ====
abbrev S8192x3072 : Shape := ⟨2, ![8192, 3072]⟩
abbrev S500x3 : Shape := ⟨2, ![500, 3]⟩
abbrev S500x3072 : Shape := ⟨2, ![500, 3072]⟩
abbrev S500x64 : Shape := ⟨2, ![500, 64]⟩
abbrev S500x10 : Shape := ⟨2, ![500, 10]⟩
abbrev S500 : Shape := ⟨1, ![500]⟩
abbrev S_ : Shape := ⟨0, ![]⟩
abbrev S500x1x3 : Shape := ⟨3, ![500, 1, 3]⟩
abbrev S1x500x3 : Shape := ⟨3, ![1, 500, 3]⟩
abbrev S500x500x3 : Shape := ⟨3, ![500, 500, 3]⟩
abbrev S500x500 : Shape := ⟨2, ![500, 500]⟩
abbrev S500x1 : Shape := ⟨2, ![500, 1]⟩
abbrev S64x500 : Shape := ⟨2, ![64, 500]⟩
abbrev S3072x500 : Shape := ⟨2, ![3072, 500]⟩
abbrev S1x500 : Shape := ⟨2, ![1, 500]⟩
abbrev S8192x10 : Shape := ⟨2, ![8192, 10]⟩
abbrev S512x3072 : Shape := ⟨2, ![512, 3072]⟩
abbrev S512x10 : Shape := ⟨2, ![512, 10]⟩
abbrev S512x500 : Shape := ⟨2, ![512, 500]⟩

abbrev nBuf : Space → Nat
  | .hbm => 122
  | .vmem => 9
  | .smem => 0
  | _ => 0

abbrev bufTy : (tb : Table) → Fin (tcTables nBuf tb) → BufTy
  | .hbm, ⟨0, _⟩ => ⟨S8192x3072, .f32⟩
  | .hbm, ⟨1, _⟩ => ⟨S500x3, .f32⟩
  | .hbm, ⟨2, _⟩ => ⟨S500x3072, .f32⟩
  | .hbm, ⟨3, _⟩ => ⟨S500x64, .f32⟩
  | .hbm, ⟨4, _⟩ => ⟨S500x10, .f32⟩
  | .hbm, ⟨5, _⟩ => ⟨S500, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S500x3, .f32⟩
  | .hbm, ⟨10, _⟩ => ⟨S500x3, .f32⟩
  | .hbm, ⟨11, _⟩ => ⟨S_, .f32⟩
  | .hbm, ⟨12, _⟩ => ⟨S500x3, .f32⟩
  | .hbm, ⟨13, _⟩ => ⟨S500x3, .f32⟩
  | .hbm, ⟨14, _⟩ => ⟨S500x1x3, .f32⟩
  | .hbm, ⟨15, _⟩ => ⟨S1x500x3, .f32⟩
  | .hbm, ⟨16, _⟩ => ⟨S500x500x3, .f32⟩
  | .hbm, ⟨17, _⟩ => ⟨S500x500x3, .f32⟩
  | .hbm, ⟨18, _⟩ => ⟨S500x500x3, .f32⟩
  | .hbm, ⟨19, _⟩ => ⟨S500x500x3, .f32⟩
  | .hbm, ⟨20, _⟩ => ⟨S_, .f32⟩
  | .hbm, ⟨21, _⟩ => ⟨S500x500, .f32⟩
  | .hbm, ⟨22, _⟩ => ⟨S_, .f32⟩
  | .hbm, ⟨23, _⟩ => ⟨S500x500, .f32⟩
  | .hbm, ⟨24, _⟩ => ⟨S500x500, .i1⟩
  | .hbm, ⟨25, _⟩ => ⟨S_, .f32⟩
  | .hbm, ⟨26, _⟩ => ⟨S_, .f32⟩
  | .hbm, ⟨27, _⟩ => ⟨S500x500, .f32⟩
  | .hbm, ⟨28, _⟩ => ⟨S500x500, .f32⟩
  | .hbm, ⟨29, _⟩ => ⟨S500x500, .f32⟩
  | .hbm, ⟨30, _⟩ => ⟨S_, .f32⟩
  | .hbm, ⟨31, _⟩ => ⟨S_, .f32⟩
  | .hbm, ⟨32, _⟩ => ⟨S500x500, .f32⟩
  | .hbm, ⟨33, _⟩ => ⟨S500x500, .f32⟩
  | .hbm, ⟨34, _⟩ => ⟨S_, .f32⟩
  | .hbm, ⟨35, _⟩ => ⟨S500x500, .f32⟩
  | .hbm, ⟨36, _⟩ => ⟨S500x500, .i1⟩
  | .hbm, ⟨37, _⟩ => ⟨S_, .f32⟩
  | .hbm, ⟨38, _⟩ => ⟨S500x500, .f32⟩
  | .hbm, ⟨39, _⟩ => ⟨S500x500, .i1⟩
  | .hbm, ⟨40, _⟩ => ⟨S500x500, .i1⟩
  | .hbm, ⟨41, _⟩ => ⟨S500x500, .f32⟩
  | .hbm, ⟨42, _⟩ => ⟨S_, .f32⟩
  | .hbm, ⟨43, _⟩ => ⟨S500x500, .f32⟩
  | .hbm, ⟨44, _⟩ => ⟨S500x500, .f32⟩
  | .hbm, ⟨45, _⟩ => ⟨S500x500, .f32⟩
  | .hbm, ⟨46, _⟩ => ⟨S500x500, .f32⟩
  | .hbm, ⟨47, _⟩ => ⟨S500x500, .f32⟩
  | .hbm, ⟨48, _⟩ => ⟨S500x64, .f32⟩
  | .hbm, ⟨49, _⟩ => ⟨S_, .f32⟩
  | .hbm, ⟨50, _⟩ => ⟨S500, .f32⟩
  | .hbm, ⟨51, _⟩ => ⟨S500x1, .f32⟩
  | .hbm, ⟨52, _⟩ => ⟨S500x1, .f32⟩
  | .hbm, ⟨53, _⟩ => ⟨S_, .f32⟩
  | .hbm, ⟨54, _⟩ => ⟨S500x1, .f32⟩
  | .hbm, ⟨55, _⟩ => ⟨S500x1, .f32⟩
  | .hbm, ⟨56, _⟩ => ⟨S500x64, .f32⟩
  | .hbm, ⟨57, _⟩ => ⟨S500x64, .f32⟩
  | .hbm, ⟨58, _⟩ => ⟨S64x500, .f32⟩
  | .hbm, ⟨59, _⟩ => ⟨S500x500, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S500x500, .f32⟩
  | .hbm, ⟨64, _⟩ => ⟨S500x500, .f32⟩
  | .hbm, ⟨65, _⟩ => ⟨S_, .f32⟩
  | .hbm, ⟨66, _⟩ => ⟨S500x500, .f32⟩
  | .hbm, ⟨67, _⟩ => ⟨S500x500, .f32⟩
  | .hbm, ⟨68, _⟩ => ⟨S_, .f32⟩
  | .hbm, ⟨69, _⟩ => ⟨S500x500, .f32⟩
  | .hbm, ⟨70, _⟩ => ⟨S500x500, .f32⟩
  | .hbm, ⟨71, _⟩ => ⟨S_, .f32⟩
  | .hbm, ⟨72, _⟩ => ⟨S500x500, .f32⟩
  | .hbm, ⟨73, _⟩ => ⟨S500x500, .f32⟩
  | .hbm, ⟨74, _⟩ => ⟨S500x500, .f32⟩
  | .hbm, ⟨75, _⟩ => ⟨S_, .f32⟩
  | .hbm, ⟨76, _⟩ => ⟨S500, .f32⟩
  | .hbm, ⟨77, _⟩ => ⟨S500x1, .f32⟩
  | .hbm, ⟨78, _⟩ => ⟨S_, .f32⟩
  | .hbm, ⟨79, _⟩ => ⟨S500x1, .f32⟩
  | .hbm, ⟨80, _⟩ => ⟨S500x1, .f32⟩
  | .hbm, ⟨81, _⟩ => ⟨S500x500, .f32⟩
  | .hbm, ⟨82, _⟩ => ⟨S500x500, .f32⟩
  | .hbm, ⟨83, _⟩ => ⟨S500x500, .f32⟩
  | .hbm, ⟨84, _⟩ => ⟨S500x1, .f32⟩
  | .hbm, ⟨85, _⟩ => ⟨S500, .f32⟩
  | .hbm, ⟨86, _⟩ => ⟨S_, .f32⟩
  | .hbm, ⟨87, _⟩ => ⟨S500, .f32⟩
  | .hbm, ⟨88, _⟩ => ⟨S500, .f32⟩
  | .hbm, ⟨89, _⟩ => ⟨S_, .f32⟩
  | .hbm, ⟨90, _⟩ => ⟨S500, .f32⟩
  | .hbm, ⟨91, _⟩ => ⟨S500, .f32⟩
  | .hbm, ⟨92, _⟩ => ⟨S500, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S500, .f32⟩
  | .hbm, ⟨98, _⟩ => ⟨S500, .f32⟩
  | .hbm, ⟨99, _⟩ => ⟨S_, .f32⟩
  | .hbm, ⟨100, _⟩ => ⟨S500, .f32⟩
  | .hbm, ⟨101, _⟩ => ⟨S500, .f32⟩
  | .hbm, ⟨102, _⟩ => ⟨S_, .f32⟩
  | .hbm, ⟨103, _⟩ => ⟨S500, .f32⟩
  | .hbm, ⟨104, _⟩ => ⟨S500, .f32⟩
  | .hbm, ⟨105, _⟩ => ⟨S500, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S500, .f32⟩
  | .hbm, ⟨111, _⟩ => ⟨S500, .f32⟩
  | .hbm, ⟨112, _⟩ => ⟨S500x1, .f32⟩
  | .hbm, ⟨113, _⟩ => ⟨S500x10, .f32⟩
  | .hbm, ⟨114, _⟩ => ⟨S500x10, .f32⟩
  | .hbm, ⟨115, _⟩ => ⟨S3072x500, .f32⟩
  | .hbm, ⟨116, _⟩ => ⟨S3072x500, .bf16⟩
  | .hbm, ⟨117, _⟩ => ⟨S500x500, .bf16⟩
  | .hbm, ⟨118, _⟩ => ⟨S500x10, .bf16⟩
  | .hbm, ⟨119, _⟩ => ⟨S1x500, .f32⟩
  | .hbm, ⟨120, _⟩ => ⟨S1x500, .f32⟩
  | .hbm, ⟨121, _⟩ => ⟨S8192x10, .f32⟩
  | .local _ .vmem, ⟨0, _⟩ => ⟨S512x3072, .f32⟩
  | .local _ .vmem, ⟨1, _⟩ => ⟨S512x3072, .f32⟩
  | .local _ .vmem, ⟨2, _⟩ => ⟨S3072x500, .bf16⟩
  | .local _ .vmem, ⟨3, _⟩ => ⟨S500x500, .bf16⟩
  | .local _ .vmem, ⟨4, _⟩ => ⟨S500x10, .bf16⟩
  | .local _ .vmem, ⟨5, _⟩ => ⟨S1x500, .f32⟩
  | .local _ .vmem, ⟨6, _⟩ => ⟨S1x500, .f32⟩
  | .local _ .vmem, ⟨7, _⟩ => ⟨S512x10, .f32⟩
  | .local _ .vmem, ⟨8, _⟩ => ⟨S512x10, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_call3_v2 : Ref sig .tc := ⟨.hbm, 51, rfl⟩
abbrev main_v24 : Ref sig .tc := ⟨.hbm, 52, rfl⟩
abbrev main_cst_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_cst_10 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_cst_12 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_cst_14 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_15 : Ref sig .tc := ⟨.hbm, 86, rfl⟩
abbrev main_v46 : Ref sig .tc := ⟨.hbm, 87, rfl⟩
abbrev main_v47 : Ref sig .tc := ⟨.hbm, 88, rfl⟩
abbrev main_cst_16 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_17 : Ref sig .tc := ⟨.hbm, 93, rfl⟩
abbrev main_v51 : Ref sig .tc := ⟨.hbm, 94, rfl⟩
abbrev main_cst_18 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_19 : Ref sig .tc := ⟨.hbm, 99, rfl⟩
abbrev main_v55 : Ref sig .tc := ⟨.hbm, 100, rfl⟩
abbrev main_v56 : Ref sig .tc := ⟨.hbm, 101, rfl⟩
abbrev main_cst_20 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_21 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S500x500 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S500x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S500x3 : S_.BroadcastsInDim S500x3 (![] : Fin 0 → Fin S500x3.rank)
  bcast_S500x3_S500x1x3_0_2 : S500x3.BroadcastsInDim S500x1x3 (![0, 2] : Fin 2 → Fin S500x1x3.rank)
  bcast_S500x3_S1x500x3_1_2 : S500x3.BroadcastsInDim S1x500x3 (![1, 2] : Fin 2 → Fin S1x500x3.rank)
  bcast_S500x1x3_S500x500x3_0_1_2 : S500x1x3.BroadcastsInDim S500x500x3 (![0, 1, 2] : Fin 3 → Fin S500x500x3.rank)
  bcast_S1x500x3_S500x500x3_0_1_2 : S1x500x3.BroadcastsInDim S500x500x3 (![0, 1, 2] : Fin 3 → Fin S500x500x3.rank)
  reducesTo_S500x500x3_S500x500_d2 : S500x500x3.ReducesTo [2] S500x500
  h_S_ : 0 < S_.numel
  bcast_S_S500x500 : S_.BroadcastsInDim S500x500 (![] : Fin 0 → Fin S500x500.rank)
  reducesTo_S500x64_S500_d1 : S500x64.ReducesTo [1] S500
  bcast_S500_S500x1_0 : S500.BroadcastsInDim S500x1 (![0] : Fin 1 → Fin S500x1.rank)
  bcast_S_S500x1 : S_.BroadcastsInDim S500x1 (![] : Fin 0 → Fin S500x1.rank)
  bcast_S500x1_S500x64_0_1 : S500x1.BroadcastsInDim S500x64 (![0, 1] : Fin 2 → Fin S500x64.rank)
  transposes_S500x64_S64x500_1_0 : S500x64.Transposes [1, 0] S64x500
  reducesTo_S500x500_S500_d1 : S500x500.ReducesTo [1] S500
  bcast_S500x1_S500x500_0_1 : S500x1.BroadcastsInDim S500x500 (![0, 1] : Fin 2 → Fin S500x500.rank)
  transposes_S500x500_S500x500_1_0 : S500x500.Transposes [1, 0] S500x500
  slices_S500x3_S500x1_0_0 : S500x3.Slices ![0, 0] S500x1
  shapeCasts_S500x1_S500 : S500x1.ShapeCasts S500
  bcast_S_S500 : S_.BroadcastsInDim S500 (![] : Fin 0 → Fin S500.rank)
  reducesTo_S500_S_d0 : S500.ReducesTo [0] S_
  bcast_S500x1_S500x10_0_1 : S500x1.BroadcastsInDim S500x10 (![0, 1] : Fin 2 → Fin S500x10.rank)
  transposes_S500x3072_S3072x500_1_0 : S500x3072.Transposes [1, 0] S3072x500
  bitsLt_bf16_f32 : FTy.bits .bf16 < FTy.bits .f32
  shapeCasts_S500_S1x500 : S500.ShapeCasts S1x500
  inb_S512x3072_S512x3072_0_0 : ∀ a, (![0, 0] : Fin 2 → Nat) a + S512x3072.size a ≤ S512x3072.size a
  h_S512x3072 : 0 < S512x3072.numel
  inb_S3072x500_S3072x500_0_0 : ∀ a, (![0, 0] : Fin 2 → Nat) a + S3072x500.size a ≤ S3072x500.size a
  h_S3072x500 : 0 < S3072x500.numel
  shapeCasts_S3072x500_S3072x500 : S3072x500.ShapeCasts S3072x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S512x500 : S1x500.Broadcasts S512x500
  inb_S500x500_S500x500_0_0 : ∀ a, (![0, 0] : Fin 2 → Nat) a + S500x500.size a ≤ S500x500.size a
  h_S500x500 : 0 < S500x500.numel
  shapeCasts_S500x500_S500x500 : S500x500.ShapeCasts S500x500
  inb_S500x10_S500x10_0_0 : ∀ a, (![0, 0] : Fin 2 → Nat) a + S500x10.size a ≤ S500x10.size a
  h_S500x10 : 0 < S500x10.numel
  shapeCasts_S500x10_S500x10 : S500x10.ShapeCasts S500x10
  inb_S512x10_S512x10_0_0 : ∀ a, (![0, 0] : Fin 2 → Nat) a + S512x10.size a ≤ S512x10.size a
  h_S512x10 : 0 < S512x10.numel
  dot_S500x64_S64x500_S500x500_1_0_0_1_n_n_wf : DotDims.WF S500x64 S64x500 S500x500 [1] [0] [0] [1] [] []
  dot_S512x3072_S3072x500_S512x500_1_0_0_1_n_n_wf : DotDims.WF S512x3072 S3072x500 S512x500 [1] [0] [0] [1] [] []
  dot_S512x500_S500x500_S512x500_1_0_0_1_n_n_wf : DotDims.WF S512x500 S500x500 S512x500 [1] [0] [0] [1] [] []
  dot_S512x500_S500x10_S512x10_1_0_0_1_n_n_wf : DotDims.WF S512x500 S500x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x500.size a ≤ S3072x500.size a
  hwx0_1 : ∀ i : grid0.Coords, EltTy.bits .bf16 = 32 ∨ (Rect.block (s := S3072x500) S3072x500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S500x500.size a ≤ S500x500.size a
  hwx0_2 : ∀ i : grid0.Coords, EltTy.bits .bf16 = 32 ∨ (Rect.block (s := S500x500) S500x500.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S500x10.size a ≤ S500x10.size a
  hwx0_3 : ∀ i : grid0.Coords, EltTy.bits .bf16 = 32 ∨ (Rect.block (s := S500x10) S500x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x500.size a ≤ S1x500.size a
  hwx0_4 : ∀ i : grid0.Coords, EltTy.bits .f32 = 32 ∨ (Rect.block (s := S1x500) S1x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x500.size a ≤ S1x500.size a
  hwx0_5 : ∀ i : grid0.Coords, EltTy.bits .f32 = 32 ∨ (Rect.block (s := S1x500) S1x500.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x10.size a ≤ S8192x10.size a
  hwx0_6 : ∀ i : grid0.Coords, EltTy.bits .f32 = 32 ∨ (Rect.block (s := S8192x10) S512x10.size (cc0_transform_6 i) (hinb0_6 i)).WholeWords (EltTy.packing .f32)

variable [Facts₀]

def dot_S500x64_S64x500_S500x500_1_0_0_1_n_n : DotDims S500x64 S64x500 S500x500 where
  lhsContracting := [1]
  rhsContracting := [0]
  lhsNonContracting := [0]
  rhsNonContracting := [1]
  lhsBatch := []
  rhsBatch := []
  wf := dot_S500x64_S64x500_S500x500_1_0_0_1_n_n_wf
def dot_S512x3072_S3072x500_S512x500_1_0_0_1_n_n : DotDims S512x3072 S3072x500 S512x500 where
  lhsContracting := [1]
  rhsContracting := [0]
  lhsNonContracting := [0]
  rhsNonContracting := [1]
  lhsBatch := []
  rhsBatch := []
  wf := dot_S512x3072_S3072x500_S512x500_1_0_0_1_n_n_wf
def dot_S512x500_S500x500_S512x500_1_0_0_1_n_n : DotDims S512x500 S500x500 S512x500 where
  lhsContracting := [1]
  rhsContracting := [0]
  lhsNonContracting := [0]
  rhsNonContracting := [1]
  lhsBatch := []
  rhsBatch := []
  wf := dot_S512x500_S500x500_S512x500_1_0_0_1_n_n_wf
def dot_S512x500_S500x10_S512x10_1_0_0_1_n_n : DotDims S512x500 S500x10 S512x10 where
  lhsContracting := [1]
  rhsContracting := [0]
  lhsNonContracting := [0]
  rhsNonContracting := [1]
  lhsBatch := []
  rhsBatch := []
  wf := dot_S512x500_S500x10_S512x10_1_0_0_1_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S3072x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v69) S500x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v70) S500x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v71) S1x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v72) S1x500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v73) S512x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x3072 : Shape := ⟨2, ![8192, 3072]⟩
abbrev S500x3 : Shape := ⟨2, ![500, 3]⟩
abbrev S500x3072 : Shape := ⟨2, ![500, 3072]⟩
abbrev S500x64 : Shape := ⟨2, ![500, 64]⟩
abbrev S500x10 : Shape := ⟨2, ![500, 10]⟩
abbrev S500 : Shape := ⟨1, ![500]⟩
abbrev S_ : Shape := ⟨0, ![]⟩
abbrev S500x1x3 : Shape := ⟨3, ![500, 1, 3]⟩
abbrev S1x500x3 : Shape := ⟨3, ![1, 500, 3]⟩
abbrev S500x500x3 : Shape := ⟨3, ![500, 500, 3]⟩
abbrev S500x500 : Shape := ⟨2, ![500, 500]⟩
abbrev S500x1 : Shape := ⟨2, ![500, 1]⟩
abbrev S64x500 : Shape := ⟨2, ![64, 500]⟩
abbrev S3072x500 : Shape := ⟨2, ![3072, 500]⟩
abbrev S8192x500 : Shape := ⟨2, ![8192, 500]⟩
abbrev S1x500 : Shape := ⟨2, ![1, 500]⟩
abbrev S8192x10 : Shape := ⟨2, ![8192, 10]⟩

abbrev nBuf : Space → Nat
  | .hbm => 159
  | .vmem => 0
  | .smem => 0
  | _ => 0

abbrev hbmTy0_0 (i : Nat) : BufTy := match i % 128 with
  | 0 => ⟨S8192x3072, .f32⟩
  | 1 => ⟨S500x3, .f32⟩
  | 2 => ⟨S500x3072, .f32⟩
  | 3 => ⟨S500x64, .f32⟩
  | 4 => ⟨S500x10, .f32⟩
  | 5 => ⟨S500, .f32⟩
  | 6 => ⟨S_, .f32⟩
  | 7 => ⟨S_, .f32⟩
  | 8 => ⟨S_, .f32⟩
  | 9 => ⟨S500x3, .f32⟩
  | 10 => ⟨S500x3, .f32⟩
  | 11 => ⟨S_, .f32⟩
  | 12 => ⟨S500x3, .f32⟩
  | 13 => ⟨S500x3, .f32⟩
  | 14 => ⟨S500x1x3, .f32⟩
  | 15 => ⟨S1x500x3, .f32⟩
  | 16 => ⟨S500x500x3, .f32⟩
  | 17 => ⟨S500x500x3, .f32⟩
  | 18 => ⟨S500x500x3, .f32⟩
  | 19 => ⟨S500x500x3, .f32⟩
  | 20 => ⟨S_, .f32⟩
  | 21 => ⟨S500x500, .f32⟩
  | 22 => ⟨S_, .f32⟩
  | 23 => ⟨S500x500, .f32⟩
  | 24 => ⟨S500x500, .i1⟩
  | 25 => ⟨S_, .f32⟩
  | 26 => ⟨S_, .f32⟩
  | 27 => ⟨S500x500, .f32⟩
  | 28 => ⟨S500x500, .f32⟩
  | 29 => ⟨S500x500, .f32⟩
  | 30 => ⟨S_, .f32⟩
  | 31 => ⟨S_, .f32⟩
  | 32 => ⟨S500x500, .f32⟩
  | 33 => ⟨S500x500, .f32⟩
  | 34 => ⟨S_, .f32⟩
  | 35 => ⟨S500x500, .f32⟩
  | 36 => ⟨S500x500, .i1⟩
  | 37 => ⟨S_, .f32⟩
  | 38 => ⟨S500x500, .f32⟩
  | 39 => ⟨S500x500, .i1⟩
  | 40 => ⟨S500x500, .i1⟩
  | 41 => ⟨S500x500, .f32⟩
  | 42 => ⟨S_, .f32⟩
  | 43 => ⟨S500x500, .f32⟩
  | 44 => ⟨S500x500, .f32⟩
  | 45 => ⟨S500x500, .f32⟩
  | 46 => ⟨S500x500, .f32⟩
  | 47 => ⟨S500x500, .f32⟩
  | 48 => ⟨S500x64, .f32⟩
  | 49 => ⟨S_, .f32⟩
  | 50 => ⟨S500, .f32⟩
  | 51 => ⟨S500x1, .f32⟩
  | 52 => ⟨S500x1, .f32⟩
  | 53 => ⟨S_, .f32⟩
  | 54 => ⟨S500x1, .f32⟩
  | 55 => ⟨S500x1, .f32⟩
  | 56 => ⟨S500x64, .f32⟩
  | 57 => ⟨S500x64, .f32⟩
  | 58 => ⟨S64x500, .f32⟩
  | 59 => ⟨S500x500, .f32⟩
  | 60 => ⟨S_, .f32⟩
  | 61 => ⟨S_, .f32⟩
  | 62 => ⟨S_, .f32⟩
  | 63 => ⟨S500x500, .f32⟩
  | 64 => ⟨S500x500, .f32⟩
  | 65 => ⟨S_, .f32⟩
  | 66 => ⟨S500x500, .f32⟩
  | 67 => ⟨S500x500, .f32⟩
  | 68 => ⟨S_, .f32⟩
  | 69 => ⟨S500x500, .f32⟩
  | 70 => ⟨S500x500, .f32⟩
  | 71 => ⟨S_, .f32⟩
  | 72 => ⟨S500x500, .f32⟩
  | 73 => ⟨S500x500, .f32⟩
  | 74 => ⟨S500x500, .f32⟩
  | 75 => ⟨S_, .f32⟩
  | 76 => ⟨S500, .f32⟩
  | 77 => ⟨S500x1, .f32⟩
  | 78 => ⟨S_, .f32⟩
  | 79 => ⟨S500x1, .f32⟩
  | 80 => ⟨S500x1, .f32⟩
  | 81 => ⟨S500x500, .f32⟩
  | 82 => ⟨S500x500, .f32⟩
  | 83 => ⟨S500x1, .f32⟩
  | 84 => ⟨S500, .f32⟩
  | 85 => ⟨S_, .f32⟩
  | 86 => ⟨S500, .f32⟩
  | 87 => ⟨S500, .f32⟩
  | 88 => ⟨S_, .f32⟩
  | 89 => ⟨S500, .f32⟩
  | 90 => ⟨S500, .f32⟩
  | 91 => ⟨S500, .f32⟩
  | 92 => ⟨S_, .f32⟩
  | 93 => ⟨S_, .f32⟩
  | 94 => ⟨S_, .f32⟩
  | 95 => ⟨S_, .f32⟩
  | 96 => ⟨S500, .f32⟩
  | 97 => ⟨S500, .f32⟩
  | 98 => ⟨S3072x500, .f32⟩
  | 99 => ⟨S8192x500, .f32⟩
  | 100 => ⟨S1x500, .f32⟩
  | 101 => ⟨S8192x500, .f32⟩
  | 102 => ⟨S8192x500, .f32⟩
  | 103 => ⟨S1x500, .f32⟩
  | 104 => ⟨S8192x500, .f32⟩
  | 105 => ⟨S8192x500, .f32⟩
  | 106 => ⟨S500x500, .f32⟩
  | 107 => ⟨S8192x500, .f32⟩
  | 108 => ⟨S_, .f32⟩
  | 109 => ⟨S8192x500, .f32⟩
  | 110 => ⟨S8192x500, .f32⟩
  | 111 => ⟨S8192x500, .f32⟩
  | 112 => ⟨S_, .f32⟩
  | 113 => ⟨S8192x500, .f32⟩
  | 114 => ⟨S8192x500, .f32⟩
  | 115 => ⟨S_, .f32⟩
  | 116 => ⟨S8192x500, .f32⟩
  | 117 => ⟨S8192x500, .f32⟩
  | 118 => ⟨S500x500, .f32⟩
  | 119 => ⟨S8192x500, .f32⟩
  | 120 => ⟨S_, .f32⟩
  | 121 => ⟨S8192x500, .f32⟩
  | 122 => ⟨S8192x500, .f32⟩
  | 123 => ⟨S8192x500, .f32⟩
  | 124 => ⟨S_, .f32⟩
  | 125 => ⟨S8192x500, .f32⟩
  | 126 => ⟨S8192x500, .f32⟩
  | 127 => ⟨S_, .f32⟩
  | _ => ⟨S8192x3072, .f32⟩

abbrev hbmTy0_1 (i : Nat) : BufTy := match i % 128 with
  | 0 => ⟨S8192x500, .f32⟩
  | 1 => ⟨S8192x500, .f32⟩
  | 2 => ⟨S500x500, .f32⟩
  | 3 => ⟨S8192x500, .f32⟩
  | 4 => ⟨S_, .f32⟩
  | 5 => ⟨S8192x500, .f32⟩
  | 6 => ⟨S8192x500, .f32⟩
  | 7 => ⟨S8192x500, .f32⟩
  | 8 => ⟨S_, .f32⟩
  | 9 => ⟨S8192x500, .f32⟩
  | 10 => ⟨S8192x500, .f32⟩
  | 11 => ⟨S_, .f32⟩
  | 12 => ⟨S8192x500, .f32⟩
  | 13 => ⟨S8192x500, .f32⟩
  | 14 => ⟨S_, .f32⟩
  | 15 => ⟨S500, .f32⟩
  | 16 => ⟨S500, .f32⟩
  | 17 => ⟨S_, .f32⟩
  | 18 => ⟨S500, .f32⟩
  | 19 => ⟨S500, .f32⟩
  | 20 => ⟨S500, .f32⟩
  | 21 => ⟨S_, .f32⟩
  | 22 => ⟨S_, .f32⟩
  | 23 => ⟨S_, .f32⟩
  | 24 => ⟨S_, .f32⟩
  | 25 => ⟨S500, .f32⟩
  | 26 => ⟨S500, .f32⟩
  | 27 => ⟨S500x1, .f32⟩
  | 28 => ⟨S500x10, .f32⟩
  | 29 => ⟨S500x10, .f32⟩
  | 30 => ⟨S8192x10, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_call3_v2 : Ref sig .tc := ⟨.hbm, 51, rfl⟩
abbrev main_v24 : Ref sig .tc := ⟨.hbm, 52, rfl⟩
abbrev main_cst_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_cst_10 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_cst_12 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_cst_14 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_15 : Ref sig .tc := ⟨.hbm, 85, rfl⟩
abbrev main_v45 : Ref sig .tc := ⟨.hbm, 86, rfl⟩
abbrev main_v46 : Ref sig .tc := ⟨.hbm, 87, rfl⟩
abbrev main_cst_16 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_17 : Ref sig .tc := ⟨.hbm, 92, rfl⟩
abbrev main_v50 : Ref sig .tc := ⟨.hbm, 93, rfl⟩
abbrev main_cst_18 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_19 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call5_cst : Ref sig .tc := ⟨.hbm, 112, rfl⟩
abbrev main_call5_v0 : Ref sig .tc := ⟨.hbm, 113, rfl⟩
abbrev main_v67 : Ref sig .tc := ⟨.hbm, 114, rfl⟩
abbrev main_cst_20 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_21 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_call6_cst : Ref sig .tc := ⟨.hbm, 124, rfl⟩
abbrev main_call6_v0 : Ref sig .tc := ⟨.hbm, 125, rfl⟩
abbrev main_v75 : Ref sig .tc := ⟨.hbm, 126, rfl⟩
abbrev main_cst_22 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_23 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_call7_cst : Ref sig .tc := ⟨.hbm, 136, rfl⟩
abbrev main_call7_v0 : Ref sig .tc := ⟨.hbm, 137, rfl⟩
abbrev main_v83 : Ref sig .tc := ⟨.hbm, 138, rfl⟩
abbrev main_cst_24 : Ref sig .tc := ⟨.hbm, 139, rfl⟩
abbrev main_v84 : Ref sig .tc := ⟨.hbm, 140, rfl⟩
abbrev main_v85 : Ref sig .tc := ⟨.hbm, 141, rfl⟩
abbrev main_cst_25 : Ref sig .tc := ⟨.hbm, 142, rfl⟩
abbrev main_v86 : Ref sig .tc := ⟨.hbm, 143, rfl⟩
abbrev main_v87 : Ref sig .tc := ⟨.hbm, 144, rfl⟩
abbrev main_cst_26 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_27 : Ref sig .tc := ⟨.hbm, 149, rfl⟩
abbrev main_v91 : Ref sig .tc := ⟨.hbm, 150, rfl⟩
abbrev main_cst_28 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩

abbrev nD : Nat := 1
abbrev τ : Topo := Topo.v7x

variable {F : FTy → Type} [FloatOps F]

class Facts₀ : Prop where
  bcast_S_S500x3 : S_.BroadcastsInDim S500x3 (![] : Fin 0 → Fin S500x3.rank)
  bcast_S500x3_S500x1x3_0_2 : S500x3.BroadcastsInDim S500x1x3 (![0, 2] : Fin 2 → Fin S500x1x3.rank)
  bcast_S500x3_S1x500x3_1_2 : S500x3.BroadcastsInDim S1x500x3 (![1, 2] : Fin 2 → Fin S1x500x3.rank)
  bcast_S500x1x3_S500x500x3_0_1_2 : S500x1x3.BroadcastsInDim S500x500x3 (![0, 1, 2] : Fin 3 → Fin S500x500x3.rank)
  bcast_S1x500x3_S500x500x3_0_1_2 : S1x500x3.BroadcastsInDim S500x500x3 (![0, 1, 2] : Fin 3 → Fin S500x500x3.rank)
  reducesTo_S500x500x3_S500x500_d2 : S500x500x3.ReducesTo [2] S500x500
  h_S_ : 0 < S_.numel
  bcast_S_S500x500 : S_.BroadcastsInDim S500x500 (![] : Fin 0 → Fin S500x500.rank)
  reducesTo_S500x64_S500_d1 : S500x64.ReducesTo [1] S500
  bcast_S500_S500x1_0 : S500.BroadcastsInDim S500x1 (![0] : Fin 1 → Fin S500x1.rank)
  bcast_S_S500x1 : S_.BroadcastsInDim S500x1 (![] : Fin 0 → Fin S500x1.rank)
  bcast_S500x1_S500x64_0_1 : S500x1.BroadcastsInDim S500x64 (![0, 1] : Fin 2 → Fin S500x64.rank)
  transposes_S500x64_S64x500_1_0 : S500x64.Transposes [1, 0] S64x500
  reducesTo_S500x500_S500_d1 : S500x500.ReducesTo [1] S500
  bcast_S500x1_S500x500_0_1 : S500x1.BroadcastsInDim S500x500 (![0, 1] : Fin 2 → Fin S500x500.rank)
  slices_S500x3_S500x1_0_0 : S500x3.Slices ![0, 0] S500x1
  shapeCasts_S500x1_S500 : S500x1.ShapeCasts S500
  bcast_S_S500 : S_.BroadcastsInDim S500 (![] : Fin 0 → Fin S500.rank)
  reducesTo_S500_S_d0 : S500.ReducesTo [0] S_
  transposes_S500x3072_S3072x500_1_0 : S500x3072.Transposes [1, 0] S3072x500
  bcast_S500_S1x500_1 : S500.BroadcastsInDim S1x500 (![1] : Fin 1 → Fin S1x500.rank)
  bcast_S1x500_S8192x500_0_1 : S1x500.BroadcastsInDim S8192x500 (![0, 1] : Fin 2 → Fin S8192x500.rank)
  transposes_S500x500_S500x500_1_0 : S500x500.Transposes [1, 0] S500x500
  bcast_S_S8192x500 : S_.BroadcastsInDim S8192x500 (![] : Fin 0 → Fin S8192x500.rank)
  bcast_S500x1_S500x10_0_1 : S500x1.BroadcastsInDim S500x10 (![0, 1] : Fin 2 → Fin S500x10.rank)
  dot_S500x64_S64x500_S500x500_1_0_0_1_n_n_wf : DotDims.WF S500x64 S64x500 S500x500 [1] [0] [0] [1] [] []
  dot_S8192x3072_S3072x500_S8192x500_1_0_0_1_n_n_wf : DotDims.WF S8192x3072 S3072x500 S8192x500 [1] [0] [0] [1] [] []
  dot_S8192x500_S500x500_S8192x500_1_0_0_1_n_n_wf : DotDims.WF S8192x500 S500x500 S8192x500 [1] [0] [0] [1] [] []
  dot_S8192x500_S500x10_S8192x10_1_0_0_1_n_n_wf : DotDims.WF S8192x500 S500x10 S8192x10 [1] [0] [0] [1] [] []

variable [Facts₀]

def dot_S500x64_S64x500_S500x500_1_0_0_1_n_n : DotDims S500x64 S64x500 S500x500 where
  lhsContracting := [1]
  rhsContracting := [0]
  lhsNonContracting := [0]
  rhsNonContracting := [1]
  lhsBatch := []
  rhsBatch := []
  wf := dot_S500x64_S64x500_S500x500_1_0_0_1_n_n_wf
def dot_S8192x3072_S3072x500_S8192x500_1_0_0_1_n_n : DotDims S8192x3072 S3072x500 S8192x500 where
  lhsContracting := [1]
  rhsContracting := [0]
  lhsNonContracting := [0]
  rhsNonContracting := [1]
  lhsBatch := []
  rhsBatch := []
  wf := dot_S8192x3072_S3072x500_S8192x500_1_0_0_1_n_n_wf
def dot_S8192x500_S500x500_S8192x500_1_0_0_1_n_n : DotDims S8192x500 S500x500 S8192x500 where
  lhsContracting := [1]
  rhsContracting := [0]
  lhsNonContracting := [0]
  rhsNonContracting := [1]
  lhsBatch := []
  rhsBatch := []
  wf := dot_S8192x500_S500x500_S8192x500_1_0_0_1_n_n_wf
def dot_S8192x500_S500x10_S8192x10_1_0_0_1_n_n : DotDims S8192x500 S500x10 S8192x10 where
  lhsContracting := [1]
  rhsContracting := [0]
  lhsNonContracting := [0]
  rhsNonContracting := [1]
  lhsBatch := []
  rhsBatch := []
  wf := dot_S8192x500_S500x10_S8192x10_1_0_0_1_n_n_wf

class Facts : Prop extends Facts₀ where

variable [Facts]
-- ==== Proof.RowNet.lean ====
/-
  The network's arithmetic on ONE batch row, over the extended reals.

  A row `x` of 3072 inputs is projected onto 500 units through the matrix `W` (3072 × 500), each unit's
  sum scaled by its gate `g` and shifted by its bias `b` (both given as 1 × 500 rows):
      a⁰ₙ = (∑ₖ xₖ · Wₖₙ) · gₙ + bₙ .
  Three rounds of message passing follow, each through the same 500 × 500 matrix `C`:
      aₙ ↦ min (max (aₙ + ½ · ∑ₚ aₚ · Cₚₙ) 0) 50 ,
  and the last activations are read out through `O` (500 × 10):  outᵩ = ∑ₙ a³ₙ · Oₙᵩ .
  The three constants ½, 0 and 50 are kept as the f32 words both programs print; they are never evaluated.
  Nothing here uses a law of the extended reals: the two programs compute this very expression, operand order
  included, and differ only in how the batch is cut into row blocks.
-/
import Idealize.ShloMosaic.PureOps.Ideal
import Idealize.ShloMosaic.Lib.ValueIdx

noncomputable section

namespace Cert.RowNet

open Idealize.ShloMosaic Idealize.ShloMosaic.ValueIdx

/-- An `a × b` matrix of extended reals, indexed as the programs index their arrays. -/
abbrev Mat (a b : ℕ) : Type := (⟨2, ![a, b]⟩ : Shape).Idx → EReal

/-- The message weight ½, as its f32 word. -/
def half : EReal := Ideal.ofBits .f32 0x3F000000#32
/-- The rectifier's floor 0, as its f32 word. -/
def floor0 : EReal := Ideal.ofBits .f32 0x00000000#32
/-- The activation cap 50, as its f32 word. -/
def cap : EReal := Ideal.ofBits .f32 0x42480000#32

/-- The input projection of one row: unit `n` receives `(∑ₖ xₖ · Wₖₙ) · gₙ + bₙ`. -/
def project (W : Mat 3072 500) (g b : Mat 1 500) (x : Fin 3072 → EReal) (n : Fin 500) : EReal :=
  (∑ k : Fin 3072, x k * W (ix2 k n)) * g (ix2 (0 : Fin 1) n) + b (ix2 (0 : Fin 1) n)

/-- What a unit holds before rectification in one round: its own activation plus half the message
    `∑ₚ aₚ · Cₚₙ` it receives. -/
def drive (C : Mat 500 500) (a : Fin 500 → EReal) (n : Fin 500) : EReal :=
  a n + half * ∑ p : Fin 500, a p * C (ix2 p n)

/-- Rectify at 0, then cap at 50. -/
def clamp (v : EReal) : EReal := min (max v floor0) cap

/-- One round of message passing on a row of activations. -/
def pass (C : Mat 500 500) (a : Fin 500 → EReal) (n : Fin 500) : EReal := clamp (drive C a n)

/-- The output projection: `∑ₙ aₙ · Oₙᵩ`. -/
def readout (O : Mat 500 10) (a : Fin 500 → EReal) (q : Fin 10) : EReal :=
  ∑ n : Fin 500, a n * O (ix2 n q)

/-- The whole network on one row: projection, three rounds, readout. -/
def rowOut (W : Mat 3072 500) (g b : Mat 1 500) (C : Mat 500 500) (O : Mat 500 10)
    (x : Fin 3072 → EReal) (q : Fin 10) : EReal :=
  readout O (pass C (pass C (pass C (project W g b x)))) q

/-- The network on the whole batch: row `r` of the 8192 × 10 result is `rowOut` of row `r` of the input. -/
def batchOut (W : Mat 3072 500) (g b : Mat 1 500) (C : Mat 500 500) (O : Mat 500 10)
    (X : Mat 8192 3072) : Mat 8192 10 :=
  fun j => rowOut W g b C O (fun k => X (ix2 (j 0) k)) (j 1)

theorem batchOut_apply (W : Mat 3072 500) (g b : Mat 1 500) (C : Mat 500 500) (O : Mat 500 10)
    (X : Mat 8192 3072) (r : Fin 8192) (q : Fin 10) :
    batchOut W g b C O X (ix2 r q) = rowOut W g b C O (fun k => X (ix2 r k)) q := rfl

end Cert.RowNet

end
-- ==== Proof.BodyValue.lean ====
/-
  What the kernel's body computes on one block of 512 batch rows, entry by entry.

  The body is three kinds of step. The input projection multiplies the block of `x` (512 × 3072) with the
  resident matrix (3072 × 500), scales each column by the gate row and adds the bias row. A round of message
  passing multiplies the current activations (512 × 500) with the resident 500 × 500 matrix, adds half of the
  product to the activations, rectifies at 0 and caps at 50. The readout multiplies the last activations with
  the 500 × 10 matrix. Over the extended reals a change of float format is the identity and a matrix product
  into a zero accumulator is the plain sum over the contracted index, so row `p` of the block's result is
  `RowNet.rowOut` of row `p` of the block of `x`: no row of the block sees another.
-/
import proofs.«177390_j15152644620827_1_alg».proof.Proof.Gen.KernelIdeal.Skeleton
import proofs.«177390_j15152644620827_1_alg».proof.Proof.RowNet
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe
open Idealize.ShloMosaic.ValueIdx Cert.RowNet

/-! ## The three matrix products, read at an entry

Each contracts axis 1 of its left operand with axis 0 of its right operand; the operand indices at an output
entry `(p, n)` and a contraction index `k` are `(p, k)` and `(k, n)`. -/

theorem lhs_in_0 (i : S512x500.Idx) (q : dot_S512x3072_S3072x500_S512x500_1_0_0_1_n_n.contr.Idx) :
    (dot_S512x3072_S3072x500_S512x500_1_0_0_1_n_n.lhsIdx i q 0).val = (i 0).val := by
  unfold DotDims.lhsIdx
  rw [dif_neg (show ¬(0 : Fin S512x3072.rank) ∈ dot_S512x3072_S3072x500_S512x500_1_0_0_1_n_n.lhsBatch by decide), dif_pos (show (0 : Fin S512x3072.rank) ∈ dot_S512x3072_S3072x500_S512x500_1_0_0_1_n_n.lhsNonContracting by decide)]
  rfl
theorem lhs_in_1 (i : S512x500.Idx) (q : dot_S512x3072_S3072x500_S512x500_1_0_0_1_n_n.contr.Idx) :
    (dot_S512x3072_S3072x500_S512x500_1_0_0_1_n_n.lhsIdx i q 1).val = (q ⟨0, by decide⟩).val :=
  dot_S512x3072_S3072x500_S512x500_1_0_0_1_n_n.lhsIdx_val_of_single rfl i q
theorem rhs_in_0 (i : S512x500.Idx) (q : dot_S512x3072_S3072x500_S512x500_1_0_0_1_n_n.contr.Idx) :
    (dot_S512x3072_S3072x500_S512x500_1_0_0_1_n_n.rhsIdx i q 0).val = (q ⟨0, by decide⟩).val :=
  dot_S512x3072_S3072x500_S512x500_1_0_0_1_n_n.rhsIdx_val_of_single rfl i q
theorem rhs_in_1 (i : S512x500.Idx) (q : dot_S512x3072_S3072x500_S512x500_1_0_0_1_n_n.contr.Idx) :
    (dot_S512x3072_S3072x500_S512x500_1_0_0_1_n_n.rhsIdx i q 1).val = (i 1).val := by
  unfold DotDims.rhsIdx
  rw [dif_neg (show ¬(1 : Fin S3072x500.rank) ∈ dot_S512x3072_S3072x500_S512x500_1_0_0_1_n_n.rhsBatch by decide), dif_pos (show (1 : Fin S3072x500.rank) ∈ dot_S512x3072_S3072x500_S512x500_1_0_0_1_n_n.rhsNonContracting by decide)]
  rfl

theorem lhs_msg_0 (i : S512x500.Idx) (q : dot_S512x500_S500x500_S512x500_1_0_0_1_n_n.contr.Idx) :
    (dot_S512x500_S500x500_S512x500_1_0_0_1_n_n.lhsIdx i q 0).val = (i 0).val := by
  unfold DotDims.lhsIdx
  rw [dif_neg (show ¬(0 : Fin S512x500.rank) ∈ dot_S512x500_S500x500_S512x500_1_0_0_1_n_n.lhsBatch by decide), dif_pos (show (0 : Fin S512x500.rank) ∈ dot_S512x500_S500x500_S512x500_1_0_0_1_n_n.lhsNonContracting by decide)]
  rfl
theorem lhs_msg_1 (i : S512x500.Idx) (q : dot_S512x500_S500x500_S512x500_1_0_0_1_n_n.contr.Idx) :
    (dot_S512x500_S500x500_S512x500_1_0_0_1_n_n.lhsIdx i q 1).val = (q ⟨0, by decide⟩).val :=
  dot_S512x500_S500x500_S512x500_1_0_0_1_n_n.lhsIdx_val_of_single rfl i q
theorem rhs_msg_0 (i : S512x500.Idx) (q : dot_S512x500_S500x500_S512x500_1_0_0_1_n_n.contr.Idx) :
    (dot_S512x500_S500x500_S512x500_1_0_0_1_n_n.rhsIdx i q 0).val = (q ⟨0, by decide⟩).val :=
  dot_S512x500_S500x500_S512x500_1_0_0_1_n_n.rhsIdx_val_of_single rfl i q
theorem rhs_msg_1 (i : S512x500.Idx) (q : dot_S512x500_S500x500_S512x500_1_0_0_1_n_n.contr.Idx) :
    (dot_S512x500_S500x500_S512x500_1_0_0_1_n_n.rhsIdx i q 1).val = (i 1).val := by
  unfold DotDims.rhsIdx
  rw [dif_neg (show ¬(1 : Fin S500x500.rank) ∈ dot_S512x500_S500x500_S512x500_1_0_0_1_n_n.rhsBatch by decide), dif_pos (show (1 : Fin S500x500.rank) ∈ dot_S512x500_S500x500_S512x500_1_0_0_1_n_n.rhsNonContracting by decide)]
  rfl

theorem lhs_out_0 (i : S512x10.Idx) (q : dot_S512x500_S500x10_S512x10_1_0_0_1_n_n.contr.Idx) :
    (dot_S512x500_S500x10_S512x10_1_0_0_1_n_n.lhsIdx i q 0).val = (i 0).val := by
  unfold DotDims.lhsIdx
  rw [dif_neg (show ¬(0 : Fin S512x500.rank) ∈ dot_S512x500_S500x10_S512x10_1_0_0_1_n_n.lhsBatch by decide), dif_pos (show (0 : Fin S512x500.rank) ∈ dot_S512x500_S500x10_S512x10_1_0_0_1_n_n.lhsNonContracting by decide)]
  rfl
theorem lhs_out_1 (i : S512x10.Idx) (q : dot_S512x500_S500x10_S512x10_1_0_0_1_n_n.contr.Idx) :
    (dot_S512x500_S500x10_S512x10_1_0_0_1_n_n.lhsIdx i q 1).val = (q ⟨0, by decide⟩).val :=
  dot_S512x500_S500x10_S512x10_1_0_0_1_n_n.lhsIdx_val_of_single rfl i q
theorem rhs_out_0 (i : S512x10.Idx) (q : dot_S512x500_S500x10_S512x10_1_0_0_1_n_n.contr.Idx) :
    (dot_S512x500_S500x10_S512x10_1_0_0_1_n_n.rhsIdx i q 0).val = (q ⟨0, by decide⟩).val :=
  dot_S512x500_S500x10_S512x10_1_0_0_1_n_n.rhsIdx_val_of_single rfl i q
theorem rhs_out_1 (i : S512x10.Idx) (q : dot_S512x500_S500x10_S512x10_1_0_0_1_n_n.contr.Idx) :
    (dot_S512x500_S500x10_S512x10_1_0_0_1_n_n.rhsIdx i q 1).val = (i 1).val := by
  unfold DotDims.rhsIdx
  rw [dif_neg (show ¬(1 : Fin S500x10.rank) ∈ dot_S512x500_S500x10_S512x10_1_0_0_1_n_n.rhsBatch by decide), dif_pos (show (1 : Fin S500x10.rank) ∈ dot_S512x500_S500x10_S512x10_1_0_0_1_n_n.rhsNonContracting by decide)]
  rfl

/-- The input product into a zero accumulator: entry `(p, n)` is `∑ₖ l(p, k) · r(k, n)` over the 3072 inputs. -/
theorem matmul_in_apply {φ₁ φ₂ : FTy} (l : FVec Ideal S512x3072 φ₁) (r : FVec Ideal S3072x500 φ₂) (p : Fin 512) (n : Fin 500) :
    matmul dot_S512x3072_S3072x500_S512x500_1_0_0_1_n_n none l r (constant S512x500 .f32 0x00000000#32) (ix2 p n)
      = ∑ k : Fin 3072, l (ix2 p k) * r (ix2 k n) := by
  simp only [matmul]
  rw [Ideal.matmul_constant_zero_apply, ← Equiv.sum_comp (contrEquiv1 dot_S512x3072_S3072x500_S512x500_1_0_0_1_n_n 3072 rfl rfl).symm]
  refine Finset.sum_congr rfl fun k _ => ?_
  have hk := contrEquiv1_symm_val dot_S512x3072_S3072x500_S512x500_1_0_0_1_n_n 3072 rfl rfl k
  have el : dot_S512x3072_S3072x500_S512x500_1_0_0_1_n_n.lhsIdx (ix2 p n) ((contrEquiv1 dot_S512x3072_S3072x500_S512x500_1_0_0_1_n_n 3072 rfl rfl).symm k) = ix2 p k := funext fun a => Fin.ext (by
    match a with
    | ⟨0, _⟩ => exact lhs_in_0 _ _
    | ⟨1, _⟩ => exact (lhs_in_1 _ _).trans hk)
  have er : dot_S512x3072_S3072x500_S512x500_1_0_0_1_n_n.rhsIdx (ix2 p n) ((contrEquiv1 dot_S512x3072_S3072x500_S512x500_1_0_0_1_n_n 3072 rfl rfl).symm k) = ix2 k n := funext fun a => Fin.ext (by
    match a with
    | ⟨0, _⟩ => exact (rhs_in_0 _ _).trans hk
    | ⟨1, _⟩ => exact rhs_in_1 _ _)
  rw [el, er]

/-- The message product into a zero accumulator: entry `(p, n)` is `∑ₖ l(p, k) · r(k, n)` over the 500 units. -/
theorem matmul_msg_apply {φ₁ φ₂ : FTy} (l : FVec Ideal S512x500 φ₁) (r : FVec Ideal S500x500 φ₂) (p : Fin 512) (n : Fin 500) :
    matmul dot_S512x500_S500x500_S512x500_1_0_0_1_n_n none l r (constant S512x500 .f32 0x00000000#32) (ix2 p n)
      = ∑ k : Fin 500, l (ix2 p k) * r (ix2 k n) := by
  simp only [matmul]
  rw [Ideal.matmul_constant_zero_apply, ← Equiv.sum_comp (contrEquiv1 dot_S512x500_S500x500_S512x500_1_0_0_1_n_n 500 rfl rfl).symm]
  refine Finset.sum_congr rfl fun k _ => ?_
  have hk := contrEquiv1_symm_val dot_S512x500_S500x500_S512x500_1_0_0_1_n_n 500 rfl rfl k
  have el : dot_S512x500_S500x500_S512x500_1_0_0_1_n_n.lhsIdx (ix2 p n) ((contrEquiv1 dot_S512x500_S500x500_S512x500_1_0_0_1_n_n 500 rfl rfl).symm k) = ix2 p k := funext fun a => Fin.ext (by
    match a with
    | ⟨0, _⟩ => exact lhs_msg_0 _ _
    | ⟨1, _⟩ => exact (lhs_msg_1 _ _).trans hk)
  have er : dot_S512x500_S500x500_S512x500_1_0_0_1_n_n.rhsIdx (ix2 p n) ((contrEquiv1 dot_S512x500_S500x500_S512x500_1_0_0_1_n_n 500 rfl rfl).symm k) = ix2 k n := funext fun a => Fin.ext (by
    match a with
    | ⟨0, _⟩ => exact (rhs_msg_0 _ _).trans hk
    | ⟨1, _⟩ => exact rhs_msg_1 _ _)
  rw [el, er]

/-- The output product into a zero accumulator: entry `(p, q)` is `∑ₖ l(p, k) · r(k, q)` over the 500 units. -/
theorem matmul_out_apply {φ₁ φ₂ : FTy} (l : FVec Ideal S512x500 φ₁) (r : FVec Ideal S500x10 φ₂) (p : Fin 512) (n : Fin 10) :
    matmul dot_S512x500_S500x10_S512x10_1_0_0_1_n_n none l r (constant S512x10 .f32 0x00000000#32) (ix2 p n)
      = ∑ k : Fin 500, l (ix2 p k) * r (ix2 k n) := by
  simp only [matmul]
  rw [Ideal.matmul_constant_zero_apply, ← Equiv.sum_comp (contrEquiv1 dot_S512x500_S500x10_S512x10_1_0_0_1_n_n 500 rfl rfl).symm]
  refine Finset.sum_congr rfl fun k _ => ?_
  have hk := contrEquiv1_symm_val dot_S512x500_S500x10_S512x10_1_0_0_1_n_n 500 rfl rfl k
  have el : dot_S512x500_S500x10_S512x10_1_0_0_1_n_n.lhsIdx (ix2 p n) ((contrEquiv1 dot_S512x500_S500x10_S512x10_1_0_0_1_n_n 500 rfl rfl).symm k) = ix2 p k := funext fun a => Fin.ext (by
    match a with
    | ⟨0, _⟩ => exact lhs_out_0 _ _
    | ⟨1, _⟩ => exact (lhs_out_1 _ _).trans hk)
  have er : dot_S512x500_S500x10_S512x10_1_0_0_1_n_n.rhsIdx (ix2 p n) ((contrEquiv1 dot_S512x500_S500x10_S512x10_1_0_0_1_n_n 500 rfl rfl).symm k) = ix2 k n := funext fun a => Fin.ext (by
    match a with
    | ⟨0, _⟩ => exact (rhs_out_0 _ _).trans hk
    | ⟨1, _⟩ => exact rhs_out_1 _ _)
  rw [el, er]

/-! ## The body's steps as functions of blocks -/

/-- The projected block: the input product, each column scaled by its gate and shifted by its bias. -/
def projected (x0 : Vec Ideal S512x3072 .f32) (x1 : Vec Ideal S3072x500 .bf16) (x4 x5 : Vec Ideal S1x500 .f32) : FVec Ideal S512x500 .f32 :=
  addf (mulf (matmul dot_S512x3072_S3072x500_S512x500_1_0_0_1_n_n none (truncf .bf16 x0 bitsLt_bf16_f32) (shapeCast S3072x500 x1 shapeCasts_S3072x500_S3072x500 : FVec Ideal S3072x500 .bf16) (constant S512x500 .f32 0x00000000#32))
      (broadcastTo S512x500 (shapeCast S1x500 x4 shapeCasts_S1x500_S1x500) broadcasts_S1x500_S512x500))
    (broadcastTo S512x500 (shapeCast S1x500 x5 shapeCasts_S1x500_S1x500) broadcasts_S1x500_S512x500)

/-- A block of activations plus half the messages it receives. -/
def driven (x2 : Vec Ideal S500x500 .bf16) (a : FVec Ideal S512x500 .f32) : FVec Ideal S512x500 .f32 :=
  addf a (mulf (broadcast S512x500 (Scalar.ofBits .f32 0x3F000000#32))
    (matmul dot_S512x500_S500x500_S512x500_1_0_0_1_n_n none (truncf .bf16 a bitsLt_bf16_f32) (shapeCast S500x500 x2 shapeCasts_S500x500_S500x500 : FVec Ideal S500x500 .bf16) (constant S512x500 .f32 0x00000000#32)))

/-- Rectified at 0, capped at 50, entry by entry. -/
def clamped (v : FVec Ideal S512x500 .f32) : FVec Ideal S512x500 .f32 :=
  minimumf (maximumf v (broadcast S512x500 (Scalar.ofBits .f32 0x00000000#32))) (broadcast S512x500 (Scalar.ofBits .f32 0x42480000#32))

/-- The block of outputs of a block of activations. -/
def emitted (x3 : Vec Ideal S500x10 .bf16) (a : FVec Ideal S512x500 .f32) : FVec Ideal S512x10 .f32 :=
  matmul dot_S512x500_S500x10_S512x10_1_0_0_1_n_n none (truncf .bf16 a bitsLt_bf16_f32) (shapeCast S500x10 x3 shapeCasts_S500x10_S500x10 : FVec Ideal S500x10 .bf16) (constant S512x10 .f32 0x00000000#32)

/-- The body's first value is these steps composed: projection, then two whole rounds and the third round up to
    its rectification. -/
theorem pay2_eq (x0 : Vec Ideal S512x3072 .f32) (x1 : Vec Ideal S3072x500 .bf16) (x4 x5 : Vec Ideal S1x500 .f32) (x2 : Vec Ideal S500x500 .bf16) :
    k0_pay2 x0 x1 x4 x5 x2 = driven x2 (clamped (driven x2 (clamped (driven x2 (projected x0 x1 x4 x5))))) := rfl

/-- The stored value: the third round's rectification, then the readout. -/
theorem pay1_eq (v37 : FVec Ideal S512x500 .f32) (x3 : Vec Ideal S500x10 .bf16) :
    k0_pay1 v37 x3 = emitted x3 (clamped v37) := rfl

/-! ## Each step at an entry of row `p` -/

theorem projected_apply (x0 : Vec Ideal S512x3072 .f32) (x1 : Vec Ideal S3072x500 .bf16) (x4 x5 : Vec Ideal S1x500 .f32) (p : Fin 512) (n : Fin 500) :
    projected x0 x1 x4 x5 (ix2 p n) = project x1 x4 x5 (fun k => x0 (ix2 p k)) n := by
  unfold projected
  rw [addf_apply, mulf_apply, matmul_in_apply, broadcastTo_1b_ab_apply, broadcastTo_1b_ab_apply,
    shapeCast_self, shapeCast_self, shapeCast_self]
  rfl

theorem driven_apply (x2 : Vec Ideal S500x500 .bf16) (a : FVec Ideal S512x500 .f32) (p : Fin 512) (n : Fin 500) :
    driven x2 a (ix2 p n) = drive x2 (fun q => a (ix2 p q)) n := by
  unfold driven
  rw [addf_apply, mulf_apply, matmul_msg_apply, shapeCast_self]
  rfl

theorem clamped_apply (v : FVec Ideal S512x500 .f32) (i : S512x500.Idx) : clamped v i = clamp (v i) := rfl

theorem emitted_apply (x3 : Vec Ideal S500x10 .bf16) (a : FVec Ideal S512x500 .f32) (p : Fin 512) (q : Fin 10) :
    emitted x3 a (ix2 p q) = readout x3 (fun n => a (ix2 p n)) q := by
  unfold emitted
  rw [matmul_out_apply, shapeCast_self]
  rfl

/-- One whole round on a block whose row `p` is `f`: row `p` of the result is `pass` of `f`. -/
theorem round_apply (x2 : Vec Ideal S500x500 .bf16) (a : FVec Ideal S512x500 .f32) (f : Fin 500 → EReal) (p : Fin 512)
    (h : ∀ n, a (ix2 p n) = f n) (n : Fin 500) : clamped (driven x2 a) (ix2 p n) = pass x2 f n := by
  rw [clamped_apply, driven_apply, funext h]
  rfl

/-- THE BODY AT AN ENTRY: entry `(p, q)` of the stored block is the network's output `q` on row `p` of the
    block of `x`, through the resident matrices as loaded. -/
theorem body_apply (x0 : Vec Ideal S512x3072 .f32) (x1 : Vec Ideal S3072x500 .bf16) (x2 : Vec Ideal S500x500 .bf16)
    (x3 : Vec Ideal S500x10 .bf16) (x4 x5 : Vec Ideal S1x500 .f32) (p : Fin 512) (q : Fin 10) :
    k0_pay1 (k0_pay2 x0 x1 x4 x5 x2) x3 (ix2 p q) = rowOut x1 x4 x5 x2 x3 (fun k => x0 (ix2 p k)) q := by
  rw [pay2_eq, pay1_eq, emitted_apply]
  have h0 := projected_apply x0 x1 x4 x5 p
  have h1 := round_apply x2 _ _ p h0
  have h2 := round_apply x2 _ _ p h1
  have h3 := round_apply x2 _ _ p h2
  exact congrArg (fun f => readout x3 f q) (funext h3)

end Cert.KernelIdeal.Body

end
-- ==== Proof.ArrayValue.lean ====
/-
  From blocks to the array: what the kernel's result array holds after the run.

  The grid has 16 points; point `t` stages rows `512·t … 512·t + 511` of `x` and writes back rows
  `512·t … 512·t + 511` of the 8192 × 10 result, while the five resident arrays are staged whole at every
  point (their block index is always (0, 0)). By the body's value at an entry, row `p` of the block written at
  point `t` is the network applied to row `512·t + p` of `x`: the block IS the point's rows of one whole-array
  function, `net`. The sixteen blocks cover every row, so the result array ends holding `net`.
-/
import proofs.«177390_j15152644620827_1_alg».proof.Proof.Gen.KernelIdeal.Value
import proofs.«177390_j15152644620827_1_alg».proof.Proof.BodyValue
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.RowNet

variable (m : (ℓ : Loc nD τ sig) → Buf (Elt Ideal) ℓ) (ρ : Dev nD → PrngReg)

theorem hz : (![0, 0] : Fin 2 → Nat) = fun _ => 0 := funext fun a => by fin_cases a <;> rfl

/-- The network applied to every row of `x`, through the resident arrays as the region finds them. -/
def net (c : Dev nD) : S8192x10.Idx → EReal :=
  batchOut (V m c main_v68) (V m c main_v71) (V m c main_v72) (V m c main_v69) (V m c main_v70)
    (m ((c : Thread nD τ).loc main_arg0))

theorem net_apply (c : Dev nD) (r : Fin 8192) (q : Fin 10) :
    net m c (ix2 r q)
      = rowOut (V m c main_v68) (V m c main_v71) (V m c main_v72) (V m c main_v69) (V m c main_v70)
          (fun k => (m ((c : Thread nD τ).loc main_arg0) : S8192x3072.Idx → EReal) (ix2 r k)) q := rfl

/-- The index maps over the grid: the block of `x` moves with the result's block along the rows, every other
    block index is zero, and the result's row-block index is at most 15. -/
theorem idx_facts : ∀ t : Fin cfg0.N, win0_0.index t (0 : Fin 2) = win0_6.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 15 :=
  (by decide +kernel : ∀ t : Fin grid0.N, _)

/-- Every row block of the result is some point's. -/
theorem idx_onto : ∀ q0 : Fin 16, ∃ t : Fin cfg0.N, win0_6.index t = ![q0.val, 0] :=
  (by decide +kernel : ∀ q0 : Fin 16, ∃ t : Fin grid0.N, win0_6.index t = ![q0.val, 0])

/-! ## The resident windows: staged whole at every point -/

/-- The input weights' block at any point is the whole array. -/
theorem resident1 (c : Dev nD) (t : Fin cfg0.N) : (iblk m c 1 t : S3072x500.Idx → EReal) = V m c main_v68 := by
  obtain ⟨-, -, e10, e11, e20, e21, e30, e31, e40, e41, e50, e51, -, -⟩ := idx_facts t
  funext y
  show V m c main_v68 (((cfg0.win 1).blk t).view.emb y) = V m c main_v68 y
  refine congrArg (V m c main_v68 : S3072x500.Idx → EReal) ?_
  funext d; apply Fin.ext
  match d with
  | ⟨0, _⟩ => show win0_1.index t (0 : Fin 2) * 3072 + 1 * (y 0).val = (y 0).val; omega
  | ⟨1, _⟩ => show win0_1.index t (1 : Fin 2) * 500 + 1 * (y 1).val = (y 1).val; omega

/-- The connection matrix's block at any point is the whole array. -/
theorem resident2 (c : Dev nD) (t : Fin cfg0.N) : (iblk m c 2 t : S500x500.Idx → EReal) = V m c main_v69 := by
  obtain ⟨-, -, e10, e11, e20, e21, e30, e31, e40, e41, e50, e51, -, -⟩ := idx_facts t
  funext y
  show V m c main_v69 (((cfg0.win 2).blk t).view.emb y) = V m c main_v69 y
  refine congrArg (V m c main_v69 : S500x500.Idx → EReal) ?_
  funext d; apply Fin.ext
  match d with
  | ⟨0, _⟩ => show win0_2.index t (0 : Fin 2) * 500 + 1 * (y 0).val = (y 0).val; omega
  | ⟨1, _⟩ => show win0_2.index t (1 : Fin 2) * 500 + 1 * (y 1).val = (y 1).val; omega

/-- The output weights' block at any point is the whole array. -/
theorem resident3 (c : Dev nD) (t : Fin cfg0.N) : (iblk m c 3 t : S500x10.Idx → EReal) = V m c main_v70 := by
  obtain ⟨-, -, e10, e11, e20, e21, e30, e31, e40, e41, e50, e51, -, -⟩ := idx_facts t
  funext y
  show V m c main_v70 (((cfg0.win 3).blk t).view.emb y) = V m c main_v70 y
  refine congrArg (V m c main_v70 : S500x10.Idx → EReal) ?_
  funext d; apply Fin.ext
  match d with
  | ⟨0, _⟩ => show win0_3.index t (0 : Fin 2) * 500 + 1 * (y 0).val = (y 0).val; omega
  | ⟨1, _⟩ => show win0_3.index t (1 : Fin 2) * 10 + 1 * (y 1).val = (y 1).val; omega

/-- The gate row's block at any point is the whole array. -/
theorem resident4 (c : Dev nD) (t : Fin cfg0.N) : (iblk m c 4 t : S1x500.Idx → EReal) = V m c main_v71 := by
  obtain ⟨-, -, e10, e11, e20, e21, e30, e31, e40, e41, e50, e51, -, -⟩ := idx_facts t
  funext y
  show V m c main_v71 (((cfg0.win 4).blk t).view.emb y) = V m c main_v71 y
  refine congrArg (V m c main_v71 : S1x500.Idx → EReal) ?_
  funext d; apply Fin.ext
  match d with
  | ⟨0, _⟩ => show win0_4.index t (0 : Fin 2) * 1 + 1 * (y 0).val = (y 0).val; omega
  | ⟨1, _⟩ => show win0_4.index t (1 : Fin 2) * 500 + 1 * (y 1).val = (y 1).val; omega

/-- The bias row's block at any point is the whole array. -/
theorem resident5 (c : Dev nD) (t : Fin cfg0.N) : (iblk m c 5 t : S1x500.Idx → EReal) = V m c main_v72 := by
  obtain ⟨-, -, e10, e11, e20, e21, e30, e31, e40, e41, e50, e51, -, -⟩ := idx_facts t
  funext y
  show V m c main_v72 (((cfg0.win 5).blk t).view.emb y) = V m c main_v72 y
  refine congrArg (V m c main_v72 : S1x500.Idx → EReal) ?_
  funext d; apply Fin.ext
  match d with
  | ⟨0, _⟩ => show win0_5.index t (0 : Fin 2) * 1 + 1 * (y 0).val = (y 0).val; omega
  | ⟨1, _⟩ => show win0_5.index t (1 : Fin 2) * 500 + 1 * (y 1).val = (y 1).val; omega

/-! ## The streamed window: point `t`'s rows of `x` -/

/-- The block of `x` at point `t`, at its literal type. -/
abbrev xblk (c : Dev nD) (t : Fin cfg0.N) : Vec Ideal S512x3072 .f32 := iblk m c 0 t

/-- Row `p` of the block of `x` at point `t` is row `(result's row-block index)·512 + p` of the argument. -/
theorem xblk_apply (c : Dev nD) (t : Fin cfg0.N) (p : Fin 512) (k : Fin 3072) (r : Fin 8192)
    (hr : r.val = win0_6.index t (0 : Fin 2) * 512 + p.val) :
    xblk m c t (ix2 p k) = (m ((c : Thread nD τ).loc main_arg0) : S8192x3072.Idx → EReal) (ix2 r k) := by
  obtain ⟨e00, e01, -⟩ := idx_facts t
  show V m c main_arg0 (((cfg0.win 0).blk t).view.emb (ix2 p k)) = _
  rw [V_main_arg0]
  refine congrArg (m ((c : Thread nD τ).loc main_arg0) : S8192x3072.Idx → EReal) ?_
  funext d; apply Fin.ext
  match d with
  | ⟨0, _⟩ => show win0_0.index t (0 : Fin 2) * 512 + 1 * p.val = r.val; omega
  | ⟨1, _⟩ => show win0_0.index t (1 : Fin 2) * 3072 + 1 * k.val = k.val; omega

/-! ## What a point writes back -/

/-- Entry `y` of the block the body stores at point `t` is `net` at the entry's place in the array. -/
theorem point_eq (c : Dev nD) (t : Fin cfg0.N) (y : S512x10.Idx) :
    k0_pay1 (k0_pay2 (xblk m c t) (V m c main_v68) (V m c main_v71) (V m c main_v72) (V m c main_v69)) (V m c main_v70) y
      = net m c (((cfg0.win 6).blk t).view.emb y) := by
  obtain ⟨p, q, rfl⟩ : ∃ (p : Fin 512) (q : Fin 10), y = ix2 p q := ⟨y 0, y 1, eq_ix2 y⟩
  obtain ⟨-, -, -, -, -, -, -, -, -, -, -, -, e61, e6le⟩ := idx_facts t
  have hlt : win0_6.index t (0 : Fin 2) * 512 + p.val < 8192 := by have := p.isLt; omega
  have hemb : ((cfg0.win 6).blk t).view.emb (ix2 p q) = ix2 (⟨win0_6.index t (0 : Fin 2) * 512 + p.val, hlt⟩ : Fin 8192) q :=
    funext fun d => Fin.ext (by
      match d with
      | ⟨0, _⟩ => show win0_6.index t (0 : Fin 2) * 512 + 1 * p.val = win0_6.index t (0 : Fin 2) * 512 + p.val; omega
      | ⟨1, _⟩ => show win0_6.index t (1 : Fin 2) * 10 + 1 * q.val = q.val; omega)
  rw [hemb, net_apply]
  refine (Body.body_apply (xblk m c t) (V m c main_v68) (V m c main_v69) (V m c main_v70) (V m c main_v71) (V m c main_v72) p q).trans ?_
  exact congrArg (fun f => rowOut (V m c main_v68) (V m c main_v71) (V m c main_v72) (V m c main_v69) (V m c main_v70) f q)
    (funext fun k => xblk_apply m c t p k ⟨_, hlt⟩ rfl)

/-- WHAT POINT `t` WRITES BACK is block `t` of `net`. -/
theorem flushed_eq (c : Dev nD) (t : Fin cfg0.N) :
    (dats m 0 c).flushed 6 t = ((cfg0.win 6).blk t).view.read (Elt Ideal) (net m c) := by
  rw [Value.flushed6]
  unfold out0_6
  rw [View.canon_unit_zero hz]
  simp only [View.ld_unit_zero (S := S512x3072) hz, View.ld_unit_zero (S := S3072x500) hz, View.ld_unit_zero (S := S500x500) hz,
    View.ld_unit_zero (S := S500x10) hz, View.ld_unit_zero (S := S1x500) hz]
  rw [resident1 m c t, resident2 m c t, resident3 m c t, resident4 m c t, resident5 m c t]
  funext j
  exact point_eq m c t j

/-! ## The cover, and the array -/

/-- An index of the array is in point `t`'s block iff each coordinate is in the block's range on its axis. -/
theorem mem_blk (t : Fin cfg0.N) (i : S8192x10.Idx) :
    i ∈ ((cfg0.win 6).blk t).view.set ↔ ∀ a : Fin 2, win0_6.index t a * S512x10.size a ≤ (i a).val ∧ (i a).val < win0_6.index t a * S512x10.size a + S512x10.size a := by
  show i ∈ ((View.whole main_v73).slice (win0_6.rect t)).set ↔ _
  rw [View.set_slice_whole, Rect.mem_set_unit]
  exact Iff.rfl

/-- Every entry of the result lies in the block of the point that holds its row: row `r` in block `r / 512`. -/
theorem cover (i : S8192x10.Idx) : ∃ t : Fin cfg0.N, (cfg0.win 6).flush t = true ∧ i ∈ ((cfg0.win 6).blk t).view.set := by
  have hi0 : (i 0).val < 8192 := (i 0).isLt
  have hi1 : (i 1).val < 10 := (i 1).isLt
  obtain ⟨t, ht⟩ := idx_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 10 ≤ (i 1).val ∧ (i 1).val < win0_6.index t (1 : Fin 2) * 10 + 10; omega

/-- THE ARRAY after the run is `net`. -/
theorem final (c : Dev nD) : (dats m 0 c).arrAt 6 cfg0.N = net m c :=
  (dats m 0 c).arrAt_eq_of_cover 6 (net m c) (fun t _ => flushed_eq m c t) (cover)

/-- The kernel's run: the result array ends at `net`, the arguments unchanged. -/
theorem run : θ_run defs (onTc (τ := τ) (main (F := Ideal))) ⟨m, fun _ => 0, ρ⟩ fun r => ∀ c : Dev nD,
      r.2.mem ((c : Thread nD τ).loc main_v73) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  What the reference computes, entry by entry.

  The reference runs the whole batch at once: one 8192 × 3072 by 3072 × 500 product, the gate and the bias
  broadcast over the rows, three rounds through the transposed connection matrix, and the 500 × 10 readout.
  Each of its matrix products is, over the extended reals, the plain sum over the contracted index, and every
  other step acts entry by entry, so entry `(r, q)` of its result is `RowNet.rowOut` of row `r` of `x` through
  the reference's own gate, bias, connection and readout arrays (its stages `val_main_v54`, `v56`, `v59`,
  `v62`, `v97`, which this module never opens).
-/
import proofs.«177390_j15152644620827_1_alg».proof.Proof.Gen.ReferenceIdeal.Read
import proofs.«177390_j15152644620827_1_alg».proof.Proof.RowNet

noncomputable section

namespace Cert.ReferenceIdeal.RefValue

open Cert.ReferenceIdeal Cert.ReferenceIdeal.Read Idealize.ShloMosaic Idealize.ShloMosaic.TcCoe
open Idealize.ShloMosaic.ValueIdx Cert.RowNet

/-! ## The operand indices of the five products, and of the row broadcasts, in coordinates -/

theorem lidx_v55 (r : Fin 8192) (n : Fin 500) (k : Fin 3072) : lidx_main_v55 (ix2 r n) k = ix2 r k :=
  funext fun a => Fin.ext (by match a with | ⟨0, _⟩ => rfl | ⟨1, _⟩ => rfl)
theorem ridx_v55 (r : Fin 8192) (n : Fin 500) (k : Fin 3072) : ridx_main_v55 (ix2 r n) k = ix2 k n :=
  funext fun a => Fin.ext (by match a with | ⟨0, _⟩ => rfl | ⟨1, _⟩ => rfl)

theorem lidx_v63 (r : Fin 8192) (n : Fin 500) (k : Fin 500) : lidx_main_v63 (ix2 r n) k = ix2 r k :=
  funext fun a => Fin.ext (by match a with | ⟨0, _⟩ => rfl | ⟨1, _⟩ => rfl)
theorem ridx_v63 (r : Fin 8192) (n : Fin 500) (k : Fin 500) : ridx_main_v63 (ix2 r n) k = ix2 k n :=
  funext fun a => Fin.ext (by match a with | ⟨0, _⟩ => rfl | ⟨1, _⟩ => rfl)

theorem lidx_v71 (r : Fin 8192) (n : Fin 500) (k : Fin 500) : lidx_main_v71 (ix2 r n) k = ix2 r k :=
  funext fun a => Fin.ext (by match a with | ⟨0, _⟩ => rfl | ⟨1, _⟩ => rfl)
theorem ridx_v71 (r : Fin 8192) (n : Fin 500) (k : Fin 500) : ridx_main_v71 (ix2 r n) k = ix2 k n :=
  funext fun a => Fin.ext (by match a with | ⟨0, _⟩ => rfl | ⟨1, _⟩ => rfl)

theorem lidx_v79 (r : Fin 8192) (n : Fin 500) (k : Fin 500) : lidx_main_v79 (ix2 r n) k = ix2 r k :=
  funext fun a => Fin.ext (by match a with | ⟨0, _⟩ => rfl | ⟨1, _⟩ => rfl)
theorem ridx_v79 (r : Fin 8192) (n : Fin 500) (k : Fin 500) : ridx_main_v79 (ix2 r n) k = ix2 k n :=
  funext fun a => Fin.ext (by match a with | ⟨0, _⟩ => rfl | ⟨1, _⟩ => rfl)

theorem lidx_v98 (r : Fin 8192) (n : Fin 10) (k : Fin 500) : lidx_main_v98 (ix2 r n) k = ix2 r k :=
  funext fun a => Fin.ext (by match a with | ⟨0, _⟩ => rfl | ⟨1, _⟩ => rfl)
theorem ridx_v98 (r : Fin 8192) (n : Fin 10) (k : Fin 500) : ridx_main_v98 (ix2 r n) k = ix2 k n :=
  funext fun a => Fin.ext (by match a with | ⟨0, _⟩ => rfl | ⟨1, _⟩ => rfl)

theorem idx_v57 (r : Fin 8192) (n : Fin 500) : idx_main_v57 (ix2 r n) = ix2 (0 : Fin 1) n :=
  funext fun a => Fin.ext (by match a with | ⟨0, _⟩ => rfl | ⟨1, _⟩ => rfl)
theorem idx_v60 (r : Fin 8192) (n : Fin 500) : idx_main_v60 (ix2 r n) = ix2 (0 : Fin 1) n :=
  funext fun a => Fin.ext (by match a with | ⟨0, _⟩ => rfl | ⟨1, _⟩ => rfl)

/-! ## The stages at an entry of row `r` -/

/-- The projected activations: the product with the transposed input weights, gated and shifted. -/
theorem projected_apply (x0 : (⟨S8192x3072, .f32⟩ : BufTy).Contents (Elt Ideal)) (x1 : (⟨S500x3, .f32⟩ : BufTy).Contents (Elt Ideal)) (x2 : (⟨S500x3072, .f32⟩ : BufTy).Contents (Elt Ideal)) (x5 : (⟨S500, .f32⟩ : BufTy).Contents (Elt Ideal)) (r : Fin 8192) (n : Fin 500) :
    val_main_v61 x0 x1 x2 x5 (ix2 r n)
      = project (val_main_v54 x2) (val_main_v56 x1) (val_main_v59 x5) (fun k => x0 (ix2 r k)) n := by
  rw [val_main_v61_apply, val_main_v58_apply, val_main_v55_apply, val_main_v57_apply, val_main_v60_apply]
  simp only [lidx_v55, ridx_v55, idx_v57, idx_v60]
  rfl

/-- Round 1: the host's product with the transposed connection matrix, halved, added, rectified and capped,
    is `pass` on each row. -/
theorem round1_apply (x0 : (⟨S8192x3072, .f32⟩ : BufTy).Contents (Elt Ideal)) (x1 : (⟨S500x3, .f32⟩ : BufTy).Contents (Elt Ideal)) (x2 : (⟨S500x3072, .f32⟩ : BufTy).Contents (Elt Ideal)) (x3 : (⟨S500x64, .f32⟩ : BufTy).Contents (Elt Ideal)) (x5 : (⟨S500, .f32⟩ : BufTy).Contents (Elt Ideal)) (r : Fin 8192) (n : Fin 500) :
    val_main_v69 x0 x1 x2 x3 x5 (ix2 r n)
      = pass (val_main_v62 x1 x3) (fun p => val_main_v61 x0 x1 x2 x5 (ix2 r p)) n := by
  rw [val_main_v69_apply, val_main_v67_apply, val_main_v66_apply, val_main_v65_apply, val_main_v63_apply]
  simp only [lidx_v63, ridx_v63]
  rfl

/-- Round 2: the host's product with the transposed connection matrix, halved, added, rectified and capped,
    is `pass` on each row. -/
theorem round2_apply (x0 : (⟨S8192x3072, .f32⟩ : BufTy).Contents (Elt Ideal)) (x1 : (⟨S500x3, .f32⟩ : BufTy).Contents (Elt Ideal)) (x2 : (⟨S500x3072, .f32⟩ : BufTy).Contents (Elt Ideal)) (x3 : (⟨S500x64, .f32⟩ : BufTy).Contents (Elt Ideal)) (x5 : (⟨S500, .f32⟩ : BufTy).Contents (Elt Ideal)) (r : Fin 8192) (n : Fin 500) :
    val_main_v77 x0 x1 x2 x3 x5 (ix2 r n)
      = pass (val_main_v62 x1 x3) (fun p => val_main_v69 x0 x1 x2 x3 x5 (ix2 r p)) n := by
  rw [val_main_v77_apply, val_main_v75_apply, val_main_v74_apply, val_main_v73_apply, val_main_v71_apply]
  simp only [lidx_v71, ridx_v71]
  rfl

/-- Round 3: the host's product with the transposed connection matrix, halved, added, rectified and capped,
    is `pass` on each row. -/
theorem round3_apply (x0 : (⟨S8192x3072, .f32⟩ : BufTy).Contents (Elt Ideal)) (x1 : (⟨S500x3, .f32⟩ : BufTy).Contents (Elt Ideal)) (x2 : (⟨S500x3072, .f32⟩ : BufTy).Contents (Elt Ideal)) (x3 : (⟨S500x64, .f32⟩ : BufTy).Contents (Elt Ideal)) (x5 : (⟨S500, .f32⟩ : BufTy).Contents (Elt Ideal)) (r : Fin 8192) (n : Fin 500) :
    val_main_v85 x0 x1 x2 x3 x5 (ix2 r n)
      = pass (val_main_v62 x1 x3) (fun p => val_main_v77 x0 x1 x2 x3 x5 (ix2 r p)) n := by
  rw [val_main_v85_apply, val_main_v83_apply, val_main_v82_apply, val_main_v81_apply, val_main_v79_apply]
  simp only [lidx_v79, ridx_v79]
  rfl

/-- The readout: the product with the scaled output weights. -/
theorem readout_apply (x0 : (⟨S8192x3072, .f32⟩ : BufTy).Contents (Elt Ideal)) (x1 : (⟨S500x3, .f32⟩ : BufTy).Contents (Elt Ideal)) (x2 : (⟨S500x3072, .f32⟩ : BufTy).Contents (Elt Ideal)) (x3 : (⟨S500x64, .f32⟩ : BufTy).Contents (Elt Ideal)) (x4 : (⟨S500x10, .f32⟩ : BufTy).Contents (Elt Ideal)) (x5 : (⟨S500, .f32⟩ : BufTy).Contents (Elt Ideal)) (r : Fin 8192) (q : Fin 10) :
    val_main_v98 x0 x1 x2 x3 x4 x5 (ix2 r q)
      = readout (val_main_v97 x1 x4) (fun n => val_main_v85 x0 x1 x2 x3 x5 (ix2 r n)) q := by
  rw [val_main_v98_apply]
  simp only [lidx_v98, ridx_v98]
  rfl

/-- THE REFERENCE'S RESULT AT AN ENTRY: the network's output `q` on row `r` of `x`. -/
theorem result_apply (x0 : (⟨S8192x3072, .f32⟩ : BufTy).Contents (Elt Ideal)) (x1 : (⟨S500x3, .f32⟩ : BufTy).Contents (Elt Ideal)) (x2 : (⟨S500x3072, .f32⟩ : BufTy).Contents (Elt Ideal)) (x3 : (⟨S500x64, .f32⟩ : BufTy).Contents (Elt Ideal)) (x4 : (⟨S500x10, .f32⟩ : BufTy).Contents (Elt Ideal)) (x5 : (⟨S500, .f32⟩ : BufTy).Contents (Elt Ideal)) (r : Fin 8192) (q : Fin 10) :
    val_main_v98 x0 x1 x2 x3 x4 x5 (ix2 r q)
      = rowOut (val_main_v54 x2) (val_main_v56 x1) (val_main_v59 x5) (val_main_v62 x1 x3) (val_main_v97 x1 x4)
          (fun k => x0 (ix2 r k)) q := by
  rw [readout_apply]
  have h0 := projected_apply x0 x1 x2 x5 r
  have h1 : ∀ n, val_main_v69 x0 x1 x2 x3 x5 (ix2 r n) = pass (val_main_v62 x1 x3) _ n := fun n =>
    (round1_apply x0 x1 x2 x3 x5 r n).trans (congrArg (fun f => pass (val_main_v62 x1 x3) f n) (funext h0))
  have h2 : ∀ n, val_main_v77 x0 x1 x2 x3 x5 (ix2 r n) = pass (val_main_v62 x1 x3) _ n := fun n =>
    (round2_apply x0 x1 x2 x3 x5 r n).trans (congrArg (fun f => pass (val_main_v62 x1 x3) f n) (funext h1))
  have h3 : ∀ n, val_main_v85 x0 x1 x2 x3 x5 (ix2 r n) = pass (val_main_v62 x1 x3) _ n := fun n =>
    (round3_apply x0 x1 x2 x3 x5 r n).trans (congrArg (fun f => pass (val_main_v62 x1 x3) f n) (funext h2))
  exact congrArg (fun f => readout (val_main_v97 x1 x4) f q) (funext h3)

/-- The reference's whole result array is the network applied to every row. -/
theorem result_eq (x0 : (⟨S8192x3072, .f32⟩ : BufTy).Contents (Elt Ideal)) (x1 : (⟨S500x3, .f32⟩ : BufTy).Contents (Elt Ideal)) (x2 : (⟨S500x3072, .f32⟩ : BufTy).Contents (Elt Ideal)) (x3 : (⟨S500x64, .f32⟩ : BufTy).Contents (Elt Ideal)) (x4 : (⟨S500x10, .f32⟩ : BufTy).Contents (Elt Ideal)) (x5 : (⟨S500, .f32⟩ : BufTy).Contents (Elt Ideal)) :
    val_main_v98 x0 x1 x2 x3 x4 x5
      = batchOut (val_main_v54 x2) (val_main_v56 x1) (val_main_v59 x5) (val_main_v62 x1 x3) (val_main_v97 x1 x4) x0 := by
  funext j
  obtain ⟨r, q, rfl⟩ : ∃ (r : Fin 8192) (q : Fin 10), j = ix2 r q := ⟨j 0, j 1, eq_ix2 j⟩
  exact result_apply x0 x1 x2 x3 x4 x5 r q

end Cert.ReferenceIdeal.RefValue

end
-- ==== Proof.LibRowOfVector.lean ====
/-
  A vector of length n laid out as a matrix with one row. Two host operations do this: a reshape [n] → [1, n] and a
  broadcast_in_dim along dims = [1]. They are the same function: entry (0, q) of either is entry q of the vector,
  because the row-major position of (0, q) in [1, n] is q.
-/
import Idealize.ShloMosaic.Lib.Pipeline.Value

namespace Cert.Lib

open Idealize.ShloMosaic

/-- The reshape of a length-n vector to one row and its broadcast_in_dim along the column axis are one function. -/
theorem reshape_row_eq_broadcastInDim {α : Type} {n : Nat} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  have hj0 : (j 0).val = 0 := by
    have h0 := (j 0).isLt
    have e : (⟨2, ![1, n]⟩ : Shape).size 0 = 1 := rfl
    omega
  have hj1 : (j 1).val < n := (j 1).isLt
  -- the vector's index under (0, q) is q
  let k : (⟨1, ![n]⟩ : Shape).Idx := fun a => match a with | ⟨0, _⟩ => ⟨(j 1).val, hj1⟩
  have hk0 : (k 0).val = (j 1).val := rfl
  rw [shapeCast_apply b h j k (by
        rw [Shape.rowMajor_val_one, Shape.rowMajor_val_two, hk0, hj0]
        show (j 1).val = 0 * n + (j 1).val
        omega),
      broadcastInDim_apply ![1] h' b j k (fun a => by
        match a with
        | ⟨0, _⟩ =>
          show (j 1).val = if n = 1 then 0 else (j 1).val
          by_cases hn : n = 1
          · rw [if_pos hn]; omega
          · rw [if_neg hn])]

end Cert.Lib
-- ==== Proof.HostSide.lean ====
/-
  The arrays the kernel's region finds resident, as the reference's own stages.

  Before its one region the kernel's program prepares, on the host, the five arrays the body keeps resident:
  the transposed input weights, the transposed connection matrix, the scaled output weights, the gate as a
  1 × 500 row and the bias as a 1 × 500 row. It does so with the very operations the reference applies to the
  same arguments (the clipped positions, the pairwise distances and their attenuation, the normalized features
  and their similarity, the row-normalized connection weights, the two exponential gates), followed only by
  changes of float format, which are the identity over the extended reals, and — for the two rows — by a
  reshape where the reference broadcasts along a new leading axis of extent one (one function: a general lemma). So each resident array IS the
  corresponding stage of the reference, as a function of the arguments; the shared host chain is carried as
  that one function and never opened.
-/
import proofs.«177390_j15152644620827_1_alg».proof.Proof.Gen.KernelIdeal.Frame
import proofs.«177390_j15152644620827_1_alg».proof.Proof.Gen.ReferenceIdeal.Read
import proofs.«177390_j15152644620827_1_alg».proof.Proof.LibRowOfVector
import Idealize.ShloMosaic.Lib.StableHlo.Run
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 8192 in
set_option maxHeartbeats 8000000 in
/-- The resident input weights are the reference's transposed input weights. -/
theorem weights_eq (c : Dev nD) :
    (V m c main_v68 : S3072x500.Idx → EReal) = Cert.ReferenceIdeal.Read.val_main_v54 (F := Ideal) (m ((c : Thread nD τ).loc main_arg2)) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxRecDepth 8192 in
set_option maxHeartbeats 8000000 in
/-- The resident connection matrix is the reference's transposed, row-normalized connection weights. -/
theorem conn_eq (c : Dev nD) :
    (V m c main_v69 : S500x500.Idx → EReal) = Cert.ReferenceIdeal.Read.val_main_v62 (F := Ideal) (m ((c : Thread nD τ).loc main_arg1)) (m ((c : Thread nD τ).loc main_arg3)) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxRecDepth 8192 in
set_option maxHeartbeats 8000000 in
/-- The resident output weights are the reference's output weights scaled by its output gate. -/
theorem outw_eq (c : Dev nD) :
    (V m c main_v70 : S500x10.Idx → EReal) = Cert.ReferenceIdeal.Read.val_main_v97 (F := Ideal) (m ((c : Thread nD τ).loc main_arg1)) (m ((c : Thread nD τ).loc main_arg4)) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxRecDepth 8192 in
set_option maxHeartbeats 8000000 in
/-- The resident gate row is the reference's input gate, reshaped to one row. -/
theorem gate_cast (c : Dev nD) :
    (V m c main_v71 : S1x500.Idx → EReal)
      = shapeCast S1x500 (Cert.ReferenceIdeal.Read.val_main_v53 (F := Ideal) (m ((c : Thread nD τ).loc main_arg1))) shapeCasts_S500_S1x500 := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxRecDepth 8192 in
set_option maxHeartbeats 8000000 in
/-- The resident bias row is the bias argument, reshaped to one row. -/
theorem bias_cast (c : Dev nD) :
    (V m c main_v72 : S1x500.Idx → EReal) = shapeCast S1x500 (m ((c : Thread nD τ).loc main_arg5)) shapeCasts_S500_S1x500 := by
  dsimp only [V]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-- The resident gate row is the reference's gate row. -/
theorem gate_eq (c : Dev nD) :
    (V m c main_v71 : S1x500.Idx → EReal) = Cert.ReferenceIdeal.Read.val_main_v56 (F := Ideal) (m ((c : Thread nD τ).loc main_arg1)) := by
  exact (gate_cast m c).trans
    (Cert.Lib.reshape_row_eq_broadcastInDim _ shapeCasts_S500_S1x500 Cert.ReferenceIdeal.Facts₀.bcast_S500_S1x500_1)

/-- The resident bias row is the reference's bias row. -/
theorem bias_eq (c : Dev nD) :
    (V m c main_v72 : S1x500.Idx → EReal) = Cert.ReferenceIdeal.Read.val_main_v59 (F := Ideal) (m ((c : Thread nD τ).loc main_arg5)) := by
  exact (bias_cast m c).trans
    (Cert.Lib.reshape_row_eq_broadcastInDim _ shapeCasts_S500_S1x500 Cert.ReferenceIdeal.Facts₀.bcast_S500_S1x500_1)

end Cert.KernelIdeal.HostSide

end
-- ==== Proof.lean ====
/-
  The certificate of a fused message-passing network: one kernel over blocks of 512 batch rows against the
  whole-batch reference, equal over the extended reals.

  Both programs first build, on the host and with the same operations, the network's small arrays from the
  arguments: the transposed input weights W, the input gate g and the bias b as rows, the transposed
  row-normalized connection matrix C, and the gated output weights O. The reference then evaluates, for the
  whole batch at once,
      out = a³ · O,   a⁰ = (x · W) ⊙ g + b,   aⁱ⁺¹ = min (max (aⁱ + ½ · (aⁱ · C)) 0) 50,
  while the kernel evaluates the same expression block by block: grid point t takes rows 512t … 512t + 511
  of x, keeps W, g, b, C, O resident, and writes rows 512t … 512t + 511 of the result. A row of the result
  depends on the same row of x only, so cutting the batch into row blocks changes nothing; over the extended
  reals the kernel's changes of float format are the identity and each matrix product, the kernel's into a
  zero accumulator and the host's alike, is the plain sum over the contracted index. The two results are
  therefore one function of the arguments, `RowNet.batchOut`, with no algebraic law and no use of the
  finiteness of the inputs.

  The pieces: RowNet (the network on one row), BodyValue (the kernel's body at an entry), ArrayValue (from
  the sixteen blocks to the result array), RefValue (the reference at an entry), HostSide (the kernel's
  resident arrays are the reference's stages). The frames are the generated runs.
-/
import proofs.«177390_j15152644620827_1_alg».proof.Defs
import proofs.«177390_j15152644620827_1_alg».proof.Proof.Gen.Kernel
import proofs.«177390_j15152644620827_1_alg».proof.Proof.Gen.Kernel.Frame
import proofs.«177390_j15152644620827_1_alg».proof.Proof.Gen.KernelIdeal
import proofs.«177390_j15152644620827_1_alg».proof.Proof.Gen.KernelIdeal.Frame
import proofs.«177390_j15152644620827_1_alg».proof.Proof.Gen.KernelIdeal.Value
import proofs.«177390_j15152644620827_1_alg».proof.Proof.Gen.ReferenceIdeal
import proofs.«177390_j15152644620827_1_alg».proof.Proof.Gen.ReferenceIdeal.Run
import proofs.«177390_j15152644620827_1_alg».proof.Proof.Gen.ReferenceIdeal.Read
import proofs.«177390_j15152644620827_1_alg».proof.Proof.Gen.Pre_finite_inputs
import proofs.«177390_j15152644620827_1_alg».proof.Proof.ArrayValue
import proofs.«177390_j15152644620827_1_alg».proof.Proof.RefValue
import proofs.«177390_j15152644620827_1_alg».proof.Proof.HostSide
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a host program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-- From memories agreeing on the arguments both programs end with the network applied to every row of `x`:
    the kernel's array is `net` (from its blocks), the reference's is `batchOut` of its own stages (entry by
    entry), and the kernel's resident arrays are those stages. -/
theorem algebraic : Cert.algebraic_KernelIdeal_ReferenceIdeal := by
  intro m ρ m' ρ' _ hagree
  refine ⟨fun c => Cert.KernelIdeal.Whole.net m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, Cert.ReferenceIdeal.RefValue.result_eq]
  obtain ⟨h0, h1, h2, h3, h4, h5⟩ := hagree c
  rw [h0, h1, h2, h3, h4, h5]
  show _ = Cert.KernelIdeal.Whole.net m c
  unfold Cert.KernelIdeal.Whole.net
  rw [Cert.KernelIdeal.HostSide.weights_eq, Cert.KernelIdeal.HostSide.gate_eq, Cert.KernelIdeal.HostSide.bias_eq,
    Cert.KernelIdeal.HostSide.conn_eq, Cert.KernelIdeal.HostSide.outw_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
